-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_arg8 : FVec F S64x64 .f32) (main_arg9 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S64x64 .f32) (main_arg5 : FVec F S64 .f32) (main_arg6 : FVec F S64x64 .f32) (main_arg7 : FVec F S64 .f32) (main_arg8 : FVec F S64x64 .f32) (main_arg9 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S100000x64 .f32) (main_arg1 : FVec F S1600000 .f32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : IVec S1600000 32) (main_arg11 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S5000x64 : Shape := ⟨2, ![5000, 64]⟩
abbrev S5000 : Shape := ⟨1, ![5000]⟩
abbrev S5000x1 : Shape := ⟨2, ![5000, 1]⟩
abbrev S100000x192 : Shape := ⟨2, ![100000, 192]⟩

abbrev nBuf : Space → Nat
  | .hbm => 53
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S1600000, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S1600000x1, .f32⟩
  | .hbm, ⟨22, _⟩ => ⟨S1600000x64, .f32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S1x64, .f32⟩
  | .hbm, ⟨29, _⟩ => ⟨S1x64, .f32⟩
  | .hbm, ⟨30, _⟩ => ⟨S100000x64, .f32⟩
  | .hbm, ⟨31, _⟩ => ⟨S100000x64, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x64, .f32⟩
  | .hbm, ⟨41, _⟩ => ⟨S1600000x1, .f32⟩
  | .hbm, ⟨42, _⟩ => ⟨S1600000x64, .f32⟩
  | .hbm, ⟨43, _⟩ => ⟨S1600000x64, .f32⟩
  | .hbm, ⟨44, _⟩ => ⟨S_, .f32⟩
  | .hbm, ⟨45, _⟩ => ⟨S100000x64, .f32⟩
  | .hbm, ⟨46, _⟩ => ⟨S1600000x1, .i32⟩
  | .hbm, ⟨47, _⟩ => ⟨S100000x64, .f32⟩
  | .hbm, ⟨48, _⟩ => ⟨S1x64, .f32⟩
  | .hbm, ⟨49, _⟩ => ⟨S1x64, .f32⟩
  | .hbm, ⟨50, _⟩ => ⟨S100000x64, .f32⟩
  | .hbm, ⟨51, _⟩ => ⟨S100000x64, .f32⟩
  | .hbm, ⟨52, _⟩ => ⟨S100000x192, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15_0 : Ref sig .tc := ⟨.hbm, 30, rfl⟩
abbrev main_v15_1 : Ref sig .tc := ⟨.hbm, 31, rfl⟩
abbrev main_c_1 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31_0 : Ref sig .tc := ⟨.hbm, 50, rfl⟩
abbrev main_v31_1 : Ref sig .tc := ⟨.hbm, 51, rfl⟩
abbrev main_v32 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  concatenates_S100000x64_S100000x64_S100000x64_S100000x192_d1 : Shape.Concatenates [S100000x64, S100000x64, S100000x64] S100000x192 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S100000x64.size a
  hwx0_7 : ∀ i : grid0.Coords, EltTy.bits .f32 = 32 ∨ (Rect.block (s := S100000x64) S5000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15_0) S5000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v15_1) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v15_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31_0) S5000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v31_1) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000 : Shape := ⟨1, ![100000]⟩
abbrev S100000x1 : Shape := ⟨2, ![100000, 1]⟩
abbrev S100000x192 : Shape := ⟨2, ![100000, 192]⟩

abbrev nBuf : Space → Nat
  | .hbm => 119
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S1600000x1, .f32⟩
  | .hbm, ⟨22, _⟩ => ⟨S1600000x64, .f32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S100000x64, .f32⟩
  | .hbm, ⟨29, _⟩ => ⟨S100000x64, .f32⟩
  | .hbm, ⟨30, _⟩ => ⟨S1x64, .f32⟩
  | .hbm, ⟨31, _⟩ => ⟨S100000x64, .f32⟩
  | .hbm, ⟨32, _⟩ => ⟨S100000x64, .f32⟩
  | .hbm, ⟨33, _⟩ => ⟨S_, .f32⟩
  | .hbm, ⟨34, _⟩ => ⟨S_, .f32⟩
  | .hbm, ⟨35, _⟩ => ⟨S100000x64, .f32⟩
  | .hbm, ⟨36, _⟩ => ⟨S100000x64, .i1⟩
  | .hbm, ⟨37, _⟩ => ⟨S_, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S_, .f32⟩
  | .hbm, ⟨48, _⟩ => ⟨S100000x64, .f32⟩
  | .hbm, ⟨49, _⟩ => ⟨S100000x64, .i1⟩
  | .hbm, ⟨50, _⟩ => ⟨S_, .f32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S100000x64, .f32⟩
  | .hbm, ⟨55, _⟩ => ⟨S100000x64, .f32⟩
  | .hbm, ⟨56, _⟩ => ⟨S_, .f32⟩
  | .hbm, ⟨57, _⟩ => ⟨S100000, .f32⟩
  | .hbm, ⟨58, _⟩ => ⟨S100000x1, .f32⟩
  | .hbm, ⟨59, _⟩ => ⟨S100000x1, .f32⟩
  | .hbm, ⟨60, _⟩ => ⟨S_, .f32⟩
  | .hbm, ⟨61, _⟩ => ⟨S100000x1, .f32⟩
  | .hbm, ⟨62, _⟩ => ⟨S100000x1, .f32⟩
  | .hbm, ⟨63, _⟩ => ⟨S100000x64, .f32⟩
  | .hbm, ⟨64, _⟩ => ⟨S100000x64, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x64, .f32⟩
  | .hbm, ⟨74, _⟩ => ⟨S1600000x1, .f32⟩
  | .hbm, ⟨75, _⟩ => ⟨S1600000x64, .f32⟩
  | .hbm, ⟨76, _⟩ => ⟨S1600000x64, .f32⟩
  | .hbm, ⟨77, _⟩ => ⟨S_, .f32⟩
  | .hbm, ⟨78, _⟩ => ⟨S100000x64, .f32⟩
  | .hbm, ⟨79, _⟩ => ⟨S1600000x1, .i32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S100000x64, .f32⟩
  | .hbm, ⟨86, _⟩ => ⟨S_, .f32⟩
  | .hbm, ⟨87, _⟩ => ⟨S_, .f32⟩
  | .hbm, ⟨88, _⟩ => ⟨S100000x64, .f32⟩
  | .hbm, ⟨89, _⟩ => ⟨S100000x64, .i1⟩
  | .hbm, ⟨90, _⟩ => ⟨S_, .f32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S100000x64, .f32⟩
  | .hbm, ⟨95, _⟩ => ⟨S100000x64, .f32⟩
  | .hbm, ⟨96, _⟩ => ⟨S1x64, .f32⟩
  | .hbm, ⟨97, _⟩ => ⟨S100000x64, .f32⟩
  | .hbm, ⟨98, _⟩ => ⟨S100000x64, .f32⟩
  | .hbm, ⟨99, _⟩ => ⟨S_, .f32⟩
  | .hbm, ⟨100, _⟩ => ⟨S_, .f32⟩
  | .hbm, ⟨101, _⟩ => ⟨S100000x64, .f32⟩
  | .hbm, ⟨102, _⟩ => ⟨S100000x64, .i1⟩
  | .hbm, ⟨103, _⟩ => ⟨S_, .f32⟩
  | .hbm, ⟨104, _⟩ => ⟨S100000x64, .f32⟩
  | .hbm, ⟨105, _⟩ => ⟨S100000x64, .f32⟩
  | .hbm, ⟨106, _⟩ => ⟨S100000x64, .f32⟩
  | .hbm, ⟨107, _⟩ => ⟨S100000x64, .f32⟩
  | .hbm, ⟨108, _⟩ => ⟨S100000x64, .f32⟩
  | .hbm, ⟨109, _⟩ => ⟨S_, .f32⟩
  | .hbm, ⟨110, _⟩ => ⟨S100000, .f32⟩
  | .hbm, ⟨111, _⟩ => ⟨S100000x1, .f32⟩
  | .hbm, ⟨112, _⟩ => ⟨S100000x1, .f32⟩
  | .hbm, ⟨113, _⟩ => ⟨S_, .f32⟩
  | .hbm, ⟨114, _⟩ => ⟨S100000x1, .f32⟩
  | .hbm, ⟨115, _⟩ => ⟨S100000x1, .f32⟩
  | .hbm, ⟨116, _⟩ => ⟨S100000x64, .f32⟩
  | .hbm, ⟨117, _⟩ => ⟨S100000x64, .f32⟩
  | .hbm, ⟨118, _⟩ => ⟨S100000x192, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_2 : Ref sig .tc := ⟨.hbm, 46, rfl⟩
abbrev main_call1_cst : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v24 : Ref sig .tc := ⟨.hbm, 53, rfl⟩
abbrev main_v25 : Ref sig .tc := ⟨.hbm, 54, rfl⟩
abbrev main_call2_v0 : Ref sig .tc := ⟨.hbm, 55, rfl⟩
abbrev main_call2_cst : Ref sig .tc := ⟨.hbm, 56, rfl⟩
abbrev main_call2_v1 : Ref sig .tc := ⟨.hbm, 57, rfl⟩
abbrev main_call2_v2 : Ref sig .tc := ⟨.hbm, 58, rfl⟩
abbrev main_v26 : Ref sig .tc := ⟨.hbm, 59, rfl⟩
abbrev main_cst_3 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_c_4 : Ref sig .tc := ⟨.hbm, 65, rfl⟩
abbrev main_v31 : Ref sig .tc := ⟨.hbm, 66, rfl⟩
abbrev main_v32 : Ref sig .tc := ⟨.hbm, 67, rfl⟩
abbrev main_c_5 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_6 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_cst_7 : Ref sig .tc := ⟨.hbm, 86, rfl⟩
abbrev main_call3_cst : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_cst_8 : Ref sig .tc := ⟨.hbm, 99, rfl⟩
abbrev main_call4_cst : Ref sig .tc := ⟨.hbm, 100, rfl⟩
abbrev main_call4_v0 : Ref sig .tc := ⟨.hbm, 101, rfl⟩
abbrev main_call4_v1 : Ref sig .tc := ⟨.hbm, 102, rfl⟩
abbrev main_call4_v2 : Ref sig .tc := ⟨.hbm, 103, rfl⟩
abbrev main_call4_v3 : Ref sig .tc := ⟨.hbm, 104, rfl⟩
abbrev main_call4_v4 : Ref sig .tc := ⟨.hbm, 105, rfl⟩
abbrev main_v55 : Ref sig .tc := ⟨.hbm, 106, rfl⟩
abbrev main_v56 : Ref sig .tc := ⟨.hbm, 107, rfl⟩
abbrev main_call5_v0 : Ref sig .tc := ⟨.hbm, 108, rfl⟩
abbrev main_call5_cst : Ref sig .tc := ⟨.hbm, 109, rfl⟩
abbrev main_call5_v1 : Ref sig .tc := ⟨.hbm, 110, rfl⟩
abbrev main_call5_v2 : Ref sig .tc := ⟨.hbm, 111, rfl⟩
abbrev main_v57 : Ref sig .tc := ⟨.hbm, 112, rfl⟩
abbrev main_cst_9 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  concatenates_S100000x64_S100000x64_S100000x64_S100000x192_d1 : Shape.Concatenates [S100000x64, S100000x64, S100000x64] S100000x192 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KIdeal.Region0.lean ====
/-
  The first layer's kernel region, at any contents `V` of the core's buffers when the region is entered.

  The grid has 20 points; at point `t` the body is handed rows 5000·t … 5000·t + 4999 of the two row arrays
  (windows 0 and 1), the two weight matrices and the two bias rows whole (windows 2 to 5), and writes one block of
  each result array (windows 6 and 7). `iblk` is an input window's block at a point. The body leaves in window 6's
  buffer the combined rows (`outE`: the body's first stored value as a function of the six input blocks) and in
  window 7's buffer those rows divided by their lengths (`outN`). `dat` records this as the pipeline's proof data,
  and `body_obligation` is the body's run at every point against it.
-/
import proofs.«108768_j30846455120404_1_alg».proof.Proof.Gen.KernelIdeal.Launch
import proofs.«108768_j30846455120404_1_alg».proof.Proof.Gen.KernelIdeal.Skeleton
import proofs.«108768_j30846455120404_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether it was fetched there or at an
    earlier point with the same block index, for any proof data over the arrays `V` whose body leaves the block in
    place: one statement per input window (the windows are uncut and never idle). -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rA : Rect S5000x64 := Rect.unit (s := S5000x64) ![0, 0] S5000x64.size inb_S5000x64_S5000x64_0_0
abbrev rW : Rect S64x64 := Rect.unit (s := S64x64) ![0, 0] S64x64.size inb_S64x64_S64x64_0_0
abbrev rB : Rect S1x64 := Rect.unit (s := S1x64) ![0, 0] S1x64.size inb_S1x64_S1x64_0_0

/-! ## What the body leaves in each output window's buffer -/

/-- The combined rows of the block: the body's first stored value, from the six input blocks. -/
def payE (x0 x1 : Vec F S5000x64 .f32) (x2 : Vec F S64x64 .f32) (x3 : Vec F S1x64 .f32) (x4 : Vec F S64x64 .f32)
    (x5 : Vec F S1x64 .f32) : Vec F S5000x64 .f32 :=
  k0_pay2 (View.ld x0 rA) (View.ld x1 rA) (View.ld x2 rW) (View.ld x4 rW) (View.ld x3 rB) (View.ld x5 rB)

/-- The block's rows divided by their lengths: the body's second stored value. -/
def payN (x0 x1 : Vec F S5000x64 .f32) (x2 : Vec F S64x64 .f32) (x3 : Vec F S1x64 .f32) (x4 : Vec F S64x64 .f32)
    (x5 : Vec F S1x64 .f32) : Vec F S5000x64 .f32 :=
  k0_pay1 (payE x0 x1 x2 x3 x4 x5)
    (k0_pay3 (View.ld x0 rA) (View.ld x1 rA) (View.ld x2 rW) (View.ld x4 rW) (View.ld x3 rB) (View.ld x5 rB))

/-- Window 6's staging buffer after the body: its one store, of the whole block. -/
def outE (x0 x1 : Vec F S5000x64 .f32) (x2 : Vec F S64x64 .f32) (x3 : Vec F S1x64 .f32) (x4 : Vec F S64x64 .f32)
    (x5 : Vec F S1x64 .f32) : Vec F S5000x64 .f32 :=
  View.canon [⟨rA, payE x0 x1 x2 x3 x4 x5⟩]

/-- Window 7's staging buffer after the body: its one store, of the whole block. -/
def outN (x0 x1 : Vec F S5000x64 .f32) (x2 : Vec F S64x64 .f32) (x3 : Vec F S1x64 .f32) (x4 : Vec F S64x64 .f32)
    (x5 : Vec F S1x64 .f32) : Vec F S5000x64 .f32 :=
  View.canon [⟨rA, payN x0 x1 x2 x3 x4 x5⟩]

/-- One store of the whole block covers the buffer. -/
theorem cover (p0 : Vec F S5000x64 .f32) (y : S5000x64.Idx) :
    ∃ pc ∈ ([⟨rA, p0⟩] : List (View.Piece (Elt F) S5000x64 .f32)), y ∈ pc.1.set :=
  View.cover_of_tiled [⟨rA, p0⟩] S5000x64.size (by rfl) y

/-! ## The body's run -/

set_option maxHeartbeats 4000000 in
/-- On whole staging memrefs, the inputs' at contents `x0 … x5` and the outputs' at anything, the body runs to the
    continuation holding the inputs' as they were and the outputs' at `outE` and `outN` of the inputs'. -/
theorem sound_kernel (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S1x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S5000x64 .f32) (harg7 : arg7.IsWhole) (arg8 : Memref sig .tc .vmem S5000x64 .f32) (harg8 : arg8.IsWhole)
    (x0 x1 : Vec F S5000x64 .f32) (x2 : Vec F S64x64 .f32) (x3 : Vec F S1x64 .f32) (x4 : Vec F S64x64 .f32) (x5 : Vec F S1x64 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (outE x0 x1 x2 x3 x4 x5) ∗ owns (c : Thread nD τ) arg8 fullShare (outN x0 x1 x2 x3 x4 x5)) -∗ K ⟨⟩))
      ⊢ wp frame (wpE (defs₀ (F := F)) Variants.none c none) E
          (cc0__combiner_kernel i arg1 harg1 arg2 harg2 arg3 harg3 arg4 harg4 arg5 harg5 arg6 harg6 arg7 harg7 arg8 harg8) K := by
  simp only [cc0__combiner_kernel_eq_skeleton]; unfold cc0__combiner_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover _)
  iexists _; isplitr
  swap; · iexact H7
  ipureintro
  exact View.read_writes_eq_canon _ _ _ (cover _)

/-! ## The pipeline's proof data -/

/-- The proof data of this pipeline on core `c`: the arrays as the region finds them; after the body at point `t` each
    input's buffer at its block, window 6's at `outE` and window 7's at `outN` of the input blocks; nothing owed; full
    shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outE (iblk V c 0 t) (iblk V c 1 t) (iblk V c 2 t) (iblk V c 3 t) (iblk V c 4 t) (iblk V c 5 t)
    | ⟨7, _⟩ => outN (iblk V c 0 t) (iblk V c 1 t) (iblk V c 2 t) (iblk V c 3 t) (iblk V c 4 t) (iblk V c 5 t)
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window. -/
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = iblk V c 2 t := by dsimp only [dat]
theorem after3 (c : Dev nD) (t : Fin cfg0.N) : (dat V c).after 3 t = iblk V c 3 t := by dsimp only [dat]
theorem after4 (c : Dev nD) (t : Fin cfg0.N) : (dat V c).after 4 t = iblk V c 4 t := by dsimp only [dat]
theorem after5 (c : Dev nD) (t : Fin cfg0.N) : (dat V c).after 5 t = iblk V c 5 t := by dsimp only [dat]
theorem after6 (c : Dev nD) (t : Fin cfg0.N) : (dat V c).after 6 t = outE (iblk V c 0 t) (iblk V c 1 t) (iblk V c 2 t) (iblk V c 3 t) (iblk V c 4 t) (iblk V c 5 t) := by dsimp only [dat]
theorem after7 (c : Dev nD) (t : Fin cfg0.N) : (dat V c).after 7 t = outN (iblk V c 0 t) (iblk V c 1 t) (iblk V c 2 t) (iblk V c 3 t) (iblk V c 4 t) (iblk V c 5 t) := by dsimp only [dat]

/-- Each input's current staging buffer holds its block at every point. -/
theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d
theorem before2 (c : Dev nD) (t : Fin cfg0.N) (d) : (dat V c).before 2 t d = iblk V c 2 t :=
  before2_of V (dat V c) (A_eq V c 2) (after2 V c) t d
theorem before3 (c : Dev nD) (t : Fin cfg0.N) (d) : (dat V c).before 3 t d = iblk V c 3 t :=
  before3_of V (dat V c) (A_eq V c 3) (after3 V c) t d
theorem before4 (c : Dev nD) (t : Fin cfg0.N) (d) : (dat V c).before 4 t d = iblk V c 4 t :=
  before4_of V (dat V c) (A_eq V c 4) (after4 V c) t d
theorem before5 (c : Dev nD) (t : Fin cfg0.N) (d) : (dat V c).before 5 t d = iblk V c 5 t :=
  before5_of V (dat V c) (A_eq V c 5) (after5 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t))

/-- The body at any point: the inputs' memrefs hold their blocks, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Rg0

end
-- ==== Proof.KIdeal.Run.lean ====
/-
  The run of the whole program: three stretches of host operations around the two kernel regions.

  `B0 … B5` are the contents of the core's unscoped buffers at the six boundaries: at launch, after the first stretch,
  after the first region (its arrays at what the pipeline's write-backs leave, everything else as entered), after the
  second stretch, after the second region, after the closing concatenation. Every weakly fair execution terminates
  with every unscoped buffer at `B5` (`run_all`); read at an argument that is the launch contents (no stretch writes
  an argument, and a region only reads one), which is the frame claim (`frame`); read at the result it is the
  concatenation of the first argument with window 7's array after each region (`result`).
-/
import proofs.«108768_j30846455120404_1_alg».proof.Proof.KIdeal.Region0
import proofs.«108768_j30846455120404_1_alg».proof.Proof.KIdeal.Region1
import proofs.«108768_j30846455120404_1_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => m (c, b)
/-- After the first stretch (the first region's entry). -/
abbrev B1 : Dev nD → Valuation τ sig (Elt F) := fun c => StableHlo.after hostOps0 (B0 m c)
/-- The same read at the TensorCore's references. -/
abbrev U1 : (c : Dev nD) → (b : Ref sig .tc) → Buf (Elt F) ((c : Thread nD τ).loc b) := fun c b => B1 m c b
/-- At the first region's exit: its arrays at what the pipeline leaves, every other buffer as entered. -/
def B2 (c : Dev nD) : Valuation τ sig (Elt F) :=
  Pipeline.withArrays spec0 c (B1 m c) fun w => (Rg0.dat (U1 m) c).arrAt w cfg0.N
theorem B2_arr (c : Dev nD) (w : Fin cfg0.W) :
    B2 m c (Proc.devRef .tc (Pipeline.arrRef spec0 w)) = (Rg0.dat (U1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
/-- An input window's array leaves the first region as it entered. -/
theorem B2_in (c : Dev nD) (w : Fin cfg0.W) (hw : (cfg0.win w).isOut = false) :
    B2 m c (Proc.devRef .tc (Pipeline.arrRef spec0 w)) = B1 m c (Proc.devRef .tc (Pipeline.arrRef spec0 w)) :=
  (B2_arr m c w).trans (((Rg0.dat (U1 m) c).arrAt_in w hw _).trans (Rg0.A_eq (U1 m) c w))
abbrev U2 : (c : Dev nD) → (b : Ref sig .tc) → Buf (Elt F) ((c : Thread nD τ).loc b) := fun c b => B2 m c b
theorem hF0 (c : Dev nD) (w : Fin cfg0.W) : (Rg0.dat (U1 m) c).arrAt w cfg0.N = U2 m c (Pipeline.arrRef spec0 w) :=
  (B2_arr m c w).symm
theorem hrest0 (c : Dev nD) : ∀ b, b ∉ Finset.univ.image (Pipeline.arrRef spec0) → U2 m c b = U1 m c b :=
  fun b hb => B2_of_ne m c b fun w e => hb (Finset.mem_image.mpr ⟨w, Finset.mem_univ _, e⟩)

/-- After the second stretch (the second region's entry). -/
abbrev B3 : Dev nD → Valuation τ sig (Elt F) := fun c => StableHlo.after hostOps1 (B2 m c)
abbrev U3 : (c : Dev nD) → (b : Ref sig .tc) → Buf (Elt F) ((c : Thread nD τ).loc b) := fun c b => B3 m c b
/-- At the second region's exit. -/
def B4 (c : Dev nD) : Valuation τ sig (Elt F) :=
  Pipeline.withArrays spec1 c (B3 m c) fun w => (Rg1.dat (U3 m) c).arrAt w cfg1.N
theorem B4_arr (c : Dev nD) (w : Fin cfg1.W) :
    B4 m c (Proc.devRef .tc (Pipeline.arrRef spec1 w)) = (Rg1.dat (U3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
theorem B4_in (c : Dev nD) (w : Fin cfg1.W) (hw : (cfg1.win w).isOut = false) :
    B4 m c (Proc.devRef .tc (Pipeline.arrRef spec1 w)) = B3 m c (Proc.devRef .tc (Pipeline.arrRef spec1 w)) :=
  (B4_arr m c w).trans (((Rg1.dat (U3 m) c).arrAt_in w hw _).trans (Rg1.A_eq (U3 m) c w))
abbrev U4 : (c : Dev nD) → (b : Ref sig .tc) → Buf (Elt F) ((c : Thread nD τ).loc b) := fun c b => B4 m c b
theorem hF1 (c : Dev nD) (w : Fin cfg1.W) : (Rg1.dat (U3 m) c).arrAt w cfg1.N = U4 m c (Pipeline.arrRef spec1 w) :=
  (B4_arr m c w).symm
theorem hrest1 (c : Dev nD) : ∀ b, b ∉ Finset.univ.image (Pipeline.arrRef spec1) → U4 m c b = U3 m c b :=
  fun b hb => B4_of_ne m c b fun w e => hb (Finset.mem_image.mpr ⟨w, Finset.mem_univ _, e⟩)

/-- After the closing stretch. -/
abbrev B5 : Dev nD → Valuation τ sig (Elt F) := fun c => StableHlo.after hostOps2 (B4 m c)

/-! ## A buffer no stretch writes keeps its contents across the stretch -/

theorem B1_of (c : Dev nD) (r : Ref sig .tc) (h : r ∉ hostOps0_W) : B1 m c (Proc.devRef .tc r) = B0 m c (Proc.devRef .tc r) :=
  StableHlo.after_of_writes_sub hostOps0 _ hostOps0_writes h
theorem B3_of (c : Dev nD) (r : Ref sig .tc) (h : r ∉ hostOps1_W) : B3 m c (Proc.devRef .tc r) = B2 m c (Proc.devRef .tc r) :=
  StableHlo.after_of_writes_sub hostOps1 _ hostOps1_writes h
theorem B5_of (c : Dev nD) (r : Ref sig .tc) (h : r ∉ hostOps2_W) : B5 m c (Proc.devRef .tc r) = B4 m c (Proc.devRef .tc r) :=
  StableHlo.after_of_writes_sub hostOps2 _ hostOps2_writes h

/-! ## The arguments end as launched -/

theorem B5_main_arg0 (c : Dev nD) : B5 m c (Proc.devRef .tc main_arg0) = m ((c : Thread nD τ).loc main_arg0) :=
  (B5_of m c main_arg0 (by decide)).trans <| (B4_of_ne m c main_arg0 (by decide)).trans <| (B3_of m c main_arg0 (by decide)).trans <| (B2_in m c 0 rfl).trans <| (B1_of m c main_arg0 (by decide)).trans rfl
theorem B5_main_arg1 (c : Dev nD) : B5 m c (Proc.devRef .tc main_arg1) = m ((c : Thread nD τ).loc main_arg1) :=
  (B5_of m c main_arg1 (by decide)).trans <| (B4_of_ne m c main_arg1 (by decide)).trans <| (B3_of m c main_arg1 (by decide)).trans <| (B2_of_ne m c main_arg1 (by decide)).trans <| (B1_of m c main_arg1 (by decide)).trans rfl
theorem B5_main_arg2 (c : Dev nD) : B5 m c (Proc.devRef .tc main_arg2) = m ((c : Thread nD τ).loc main_arg2) :=
  (B5_of m c main_arg2 (by decide)).trans <| (B4_of_ne m c main_arg2 (by decide)).trans <| (B3_of m c main_arg2 (by decide)).trans <| (B2_in m c 2 rfl).trans <| (B1_of m c main_arg2 (by decide)).trans rfl
theorem B5_main_arg3 (c : Dev nD) : B5 m c (Proc.devRef .tc main_arg3) = m ((c : Thread nD τ).loc main_arg3) :=
  (B5_of m c main_arg3 (by decide)).trans <| (B4_of_ne m c main_arg3 (by decide)).trans <| (B3_of m c main_arg3 (by decide)).trans <| (B2_of_ne m c main_arg3 (by decide)).trans <| (B1_of m c main_arg3 (by decide)).trans rfl
theorem B5_main_arg4 (c : Dev nD) : B5 m c (Proc.devRef .tc main_arg4) = m ((c : Thread nD τ).loc main_arg4) :=
  (B5_of m c main_arg4 (by decide)).trans <| (B4_of_ne m c main_arg4 (by decide)).trans <| (B3_of m c main_arg4 (by decide)).trans <| (B2_in m c 4 rfl).trans <| (B1_of m c main_arg4 (by decide)).trans rfl
theorem B5_main_arg5 (c : Dev nD) : B5 m c (Proc.devRef .tc main_arg5) = m ((c : Thread nD τ).loc main_arg5) :=
  (B5_of m c main_arg5 (by decide)).trans <| (B4_of_ne m c main_arg5 (by decide)).trans <| (B3_of m c main_arg5 (by decide)).trans <| (B2_of_ne m c main_arg5 (by decide)).trans <| (B1_of m c main_arg5 (by decide)).trans rfl
theorem B5_main_arg6 (c : Dev nD) : B5 m c (Proc.devRef .tc main_arg6) = m ((c : Thread nD τ).loc main_arg6) :=
  (B5_of m c main_arg6 (by decide)).trans <| (B4_in m c 2 rfl).trans <| (B3_of m c main_arg6 (by decide)).trans <| (B2_of_ne m c main_arg6 (by decide)).trans <| (B1_of m c main_arg6 (by decide)).trans rfl
theorem B5_main_arg7 (c : Dev nD) : B5 m c (Proc.devRef .tc main_arg7) = m ((c : Thread nD τ).loc main_arg7) :=
  (B5_of m c main_arg7 (by decide)).trans <| (B4_of_ne m c main_arg7 (by decide)).trans <| (B3_of m c main_arg7 (by decide)).trans <| (B2_of_ne m c main_arg7 (by decide)).trans <| (B1_of m c main_arg7 (by decide)).trans rfl
theorem B5_main_arg8 (c : Dev nD) : B5 m c (Proc.devRef .tc main_arg8) = m ((c : Thread nD τ).loc main_arg8) :=
  (B5_of m c main_arg8 (by decide)).trans <| (B4_in m c 4 rfl).trans <| (B3_of m c main_arg8 (by decide)).trans <| (B2_of_ne m c main_arg8 (by decide)).trans <| (B1_of m c main_arg8 (by decide)).trans rfl
theorem B5_main_arg9 (c : Dev nD) : B5 m c (Proc.devRef .tc main_arg9) = m ((c : Thread nD τ).loc main_arg9) :=
  (B5_of m c main_arg9 (by decide)).trans <| (B4_of_ne m c main_arg9 (by decide)).trans <| (B3_of m c main_arg9 (by decide)).trans <| (B2_of_ne m c main_arg9 (by decide)).trans <| (B1_of m c main_arg9 (by decide)).trans rfl
theorem B5_main_arg10 (c : Dev nD) : B5 m c (Proc.devRef .tc main_arg10) = m ((c : Thread nD τ).loc main_arg10) :=
  (B5_of m c main_arg10 (by decide)).trans <| (B4_of_ne m c main_arg10 (by decide)).trans <| (B3_of m c main_arg10 (by decide)).trans <| (B2_of_ne m c main_arg10 (by decide)).trans <| (B1_of m c main_arg10 (by decide)).trans rfl
theorem B5_main_arg11 (c : Dev nD) : B5 m c (Proc.devRef .tc main_arg11) = m ((c : Thread nD τ).loc main_arg11) :=
  (B5_of m c main_arg11 (by decide)).trans <| (B4_of_ne m c main_arg11 (by decide)).trans <| (B3_of m c main_arg11 (by decide)).trans <| (B2_of_ne m c main_arg11 (by decide)).trans <| (B1_of m c main_arg11 (by decide)).trans rfl

/-! ## The proof data family and the thread state -/

/-- No pipeline has a prefetched table. -/
abbrev padm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) padm p) c
  | ⟨0, _⟩ => fun c => Rg0.dat (U1 m) c
  | ⟨1, _⟩ => fun c => Rg1.dat (U3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
/-- A stretch of host operations as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `B5`, the generator register at some state. -/
abbrev Tₙ (c : Dev nD) : sProp 𝕄 := iprop(StableHlo.held (c : Thread nD τ) (Pipeline.ucRefs τ sig) (B5 m c) ∗ ∃ r, prngReg c r)

/-! ## The regions as segments -/

set_option backward.isDefEq.respectTransparency.types false in
/-- Region 0 over the thread state: entered from every unscoped buffer at `B1`, left at `B2`. Its arrays are split
    out of the unscoped buffers and put back at the exit contents; the generator register goes into the region's
    invariant and comes out; nothing is owed; the kernel has no semaphore of its own. -/
def reg0 : Pipeline.RegionSeg (pcfgs (F := F)) padm (pdats m) () defs₀ 𝒱₀ L lv 0 where
  win := launch0.win.to₀
  block_pos := launch0.block_pos
  stage_whole := launch0.stage_whole
  K := PEmpty
  osem k := k.elim
  ho := Pipeline.OwnSemFacts.none _
  hbody c := (Rg0.body_obligation (U1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) padm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B3`, left at `B4`. Its arrays are split
    out of the unscoped buffers and put back at the exit contents; the generator register goes into the region's
    invariant and comes out; nothing is owed; the kernel has no semaphore of its own. -/
def reg1 : Pipeline.RegionSeg (pcfgs (F := F)) padm (pdats m) () defs₀ 𝒱₀ L lv 1 where
  win := launch1.win.to₀
  block_pos := launch1.block_pos
  stage_whole := launch1.stage_whole
  K := PEmpty
  osem k := k.elim
  ho := Pipeline.OwnSemFacts.none _
  hbody c := (Rg1.body_obligation (U3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) padm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev psegs : List (Pipeline.Seg (pcfgs (F := F)) padm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)) ]
theorem main_run (c : Dev nD) : main (F := F) c = Pipeline.Seg.run (psegs m) := (main_chain c).trans (by chain_rfl)

set_option backward.isDefEq.respectTransparency.types false in
/-- Every weakly fair execution from memory `m` with zero counters terminates, nothing faulting, with every unscoped
    buffer of every core at `B5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m c b) :=
  Pipeline.θ_run_regions_kit (pcfgs (F := F)) padm (pdats m) () cellOf_inj emb₁ defs₀ 𝒱₀ L lv m ρ main (psegs m)
    (fun c Q => by rw [main_run m c])
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (B5 m c) ∗ R c)
        ⊢ iprop(Tₙ m c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h => h)

/-! ## The frame, and the result -/

/-- The frame claim's statement at any float values: the program runs to the end, nothing faulting, and every argument
    array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (B5_main_arg0 m c),
     (h c _ (mem_uc main_arg1 (by decide))).trans (B5_main_arg1 m c),
     (h c _ (mem_uc main_arg2 (by decide))).trans (B5_main_arg2 m c),
     (h c _ (mem_uc main_arg3 (by decide))).trans (B5_main_arg3 m c),
     (h c _ (mem_uc main_arg4 (by decide))).trans (B5_main_arg4 m c),
     (h c _ (mem_uc main_arg5 (by decide))).trans (B5_main_arg5 m c),
     (h c _ (mem_uc main_arg6 (by decide))).trans (B5_main_arg6 m c),
     (h c _ (mem_uc main_arg7 (by decide))).trans (B5_main_arg7 m c),
     (h c _ (mem_uc main_arg8 (by decide))).trans (B5_main_arg8 m c),
     (h c _ (mem_uc main_arg9 (by decide))).trans (B5_main_arg9 m c),
     (h c _ (mem_uc main_arg10 (by decide))).trans (B5_main_arg10 m c),
     (h c _ (mem_uc main_arg11 (by decide))).trans (B5_main_arg11 m c)⟩)
    (run_all m ρ)

/-- What the closing concatenation leaves in the result array, from the contents after the second region. -/
theorem B5_main_v32 (c : Dev nD) :
    B5 m c (Proc.devRef .tc main_v32)
      = concatenate S100000x192 1
          [⟨S100000x64, B4 m c (Proc.devRef .tc main_arg0)⟩, ⟨S100000x64, B4 m c (Proc.devRef .tc main_v15_1)⟩,
            ⟨S100000x64, B4 m c (Proc.devRef .tc main_v31_1)⟩]
          concatenates_S100000x64_S100000x64_S100000x64_S100000x192_d1 := by
  show StableHlo.after hostOps2 (B4 m c) (Proc.devRef .tc main_v32) = _
  after_results
  rfl

/-- The run with the result named: the result array ends at `B5`'s reading and every argument as launched. -/
theorem run_result : θ_run defs (onTc (τ := τ) (main (F := F))) ⟨m, fun _ => 0, ρ⟩ (fun r => ∀ c : Dev nD,
      r.2.mem ((c.tc : Thread nD τ).loc main_v32) = B5 m c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v32 (by decide)),
     (h c _ (mem_uc main_arg0 (by decide))).trans (B5_main_arg0 m c),
     (h c _ (mem_uc main_arg1 (by decide))).trans (B5_main_arg1 m c),
     (h c _ (mem_uc main_arg2 (by decide))).trans (B5_main_arg2 m c),
     (h c _ (mem_uc main_arg3 (by decide))).trans (B5_main_arg3 m c),
     (h c _ (mem_uc main_arg4 (by decide))).trans (B5_main_arg4 m c),
     (h c _ (mem_uc main_arg5 (by decide))).trans (B5_main_arg5 m c),
     (h c _ (mem_uc main_arg6 (by decide))).trans (B5_main_arg6 m c),
     (h c _ (mem_uc main_arg7 (by decide))).trans (B5_main_arg7 m c),
     (h c _ (mem_uc main_arg8 (by decide))).trans (B5_main_arg8 m c),
     (h c _ (mem_uc main_arg9 (by decide))).trans (B5_main_arg9 m c),
     (h c _ (mem_uc main_arg10 (by decide))).trans (B5_main_arg10 m c),
     (h c _ (mem_uc main_arg11 (by decide))).trans (B5_main_arg11 m c)⟩)
    (run_all m ρ)

end Cert.KernelIdeal.Run

end
-- ==== Proof.KIdeal.Host.lean ====
/-
  What the two stretches of host operations before the kernel regions leave, at any contents `W` of the buffers
  when the stretch starts.

  Each stretch computes the aggregated neighbour rows of its layer (`spmm`: rows gathered at the destination indices, a
  negative index wrapped once by the row count, each scaled by its edge weight and summed into the rows named by the
  source indices of a zero array) and lays the two bias vectors out as one-row arrays. A bias vector's entry `j` is
  entry (0, j) of its one-row array.
-/
import proofs.«108768_j30846455120404_1_alg».proof.Proof.Gen.KernelIdeal.Launch
import Idealize.ShloMosaic.Lib.StableHlo.Run
import Idealize.ShloMosaic.Lib.Pipeline.Value
import Idealize.ShloMosaic.Lib.ValueIdx

noncomputable section

namespace Cert.KernelIdeal.Host

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]

/-- Gather rows at `dst`, scale by `w`, add into the rows `src` of a zero array. -/
def spmm (x : (⟨S100000x64, .f32⟩ : BufTy).Contents (Elt F)) (w : (⟨S1600000, .f32⟩ : BufTy).Contents (Elt F))
    (src dst : (⟨S1600000, .i32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 src)
    (mulf
      (Host.gather gather_S100000x64_S1600000x1_S1600000x64_1_0_n_n_0_1_164 x
        (broadcastInDim S1600000x1 ![0] bcast_S1600000_S1600000x1_0
          (select (cmpi .slt dst (broadcastInDim S1600000 ![] bcast_S_S1600000 (constantI S_ 32 0#32)))
            (addi dst (broadcastInDim S1600000 ![] bcast_S_S1600000 (constantI S_ 32 100000#32))) dst)))
      (broadcastInDim S1600000x64 ![0, 1] bcast_S1600000x1_S1600000x64_0_1
        (broadcastInDim S1600000x1 ![0] bcast_S1600000_S1600000x1_0 w)))

variable (W : Valuation τ sig (Elt F))

/-! ## The first stretch -/

theorem first_side : StableHlo.after hostOps0 W (Proc.devRef .tc main_v12)
    = spmm (W (Proc.devRef .tc main_arg0)) (W (Proc.devRef .tc main_arg1)) (W (Proc.devRef .tc main_arg10)) (W (Proc.devRef .tc main_arg11)) := by
  after_results
  rfl

theorem first_bias_sum : StableHlo.after hostOps0 W (Proc.devRef .tc main_v13)
    = shapeCast S1x64 (W (Proc.devRef .tc main_arg3)) shapeCasts_S64_S1x64 := by
  after_results
  rfl

theorem first_bias_prod : StableHlo.after hostOps0 W (Proc.devRef .tc main_v14)
    = shapeCast S1x64 (W (Proc.devRef .tc main_arg5)) shapeCasts_S64_S1x64 := by
  after_results
  rfl

/-! ## The second stretch -/

theorem second_side : StableHlo.after hostOps1 W (Proc.devRef .tc main_v28)
    = spmm (W (Proc.devRef .tc main_v15_0)) (W (Proc.devRef .tc main_arg1)) (W (Proc.devRef .tc main_arg10)) (W (Proc.devRef .tc main_arg11)) := by
  after_results_simp
  rfl

theorem second_bias_sum : StableHlo.after hostOps1 W (Proc.devRef .tc main_v29)
    = shapeCast S1x64 (W (Proc.devRef .tc main_arg7)) shapeCasts_S64_S1x64 := by
  after_results_simp
  rfl

theorem second_bias_prod : StableHlo.after hostOps1 W (Proc.devRef .tc main_v30)
    = shapeCast S1x64 (W (Proc.devRef .tc main_arg9)) shapeCasts_S64_S1x64 := by
  after_results_simp
  rfl

/-! ## A bias vector laid out as one row -/

/-- Entry (0, j) of the one-row array is the vector's entry `j`. -/
theorem bias_row {α : Type} (a : S64.Idx → α) (j : Fin 64) :
    shapeCast S1x64 a shapeCasts_S64_S1x64 (ix2 (0 : Fin 1) j) = a (ix1 j) := by
  refine (shapeCast_addUnit_apply (n := 1) ![64] a shapeCasts_S64_S1x64 (ix2 (0 : Fin 1) j)).trans ?_
  exact congrArg a (funext fun d => by match d with | ⟨0, _⟩ => rfl)

end Cert.KernelIdeal.Host

end
-- ==== Proof.Spec.lean ====
/-
  One layer of the network on a single row, over the extended reals.

  A row `e` of 64 numbers and its aggregated neighbour row `s` go through two affine maps: the sum `e + s`
  through `Ws`, `bs` and the product `e · s` through `Wb`, `bb`; each result passes the slope activation
  (`x` where `0 ≤ x`, a fixed small multiple of `x` elsewhere) and the two are added: `rowE`. A row is then
  scaled by the reciprocal of its Euclidean length, the length bounded below by a fixed tiny number: `rowN`.
  Both are functions of one row only, so an array's rows may be processed in any grouping: `layerE` and
  `layerN` apply them to every row of an array of `R` rows, whatever `R` is.
-/
import Idealize.ShloMosaic.Lib.ValueIdx
import Idealize.ShloMosaic.PureOps.Ideal

noncomputable section

namespace Cert.Spec

open Idealize.ShloMosaic Idealize.ShloMosaic.ValueIdx

/-- The slope activation: `x` where `0 ≤ x`, the slope constant times `x` elsewhere. -/
def act (x : EReal) : EReal :=
  Scalar.select (Ideal.cmp .oge x (Ideal.ofBits .f32 0x00000000#32)) x (Ideal.ofBits .f32 0x3C23D70A#32 * x)

/-- Entry `j` of the combined row: the activated affine image of `e + s` plus that of `e · s`. -/
def rowE (e s : Fin 64 → EReal) (Ws : Fin 64 → Fin 64 → EReal) (bs : Fin 64 → EReal)
    (Wb : Fin 64 → Fin 64 → EReal) (bb : Fin 64 → EReal) (j : Fin 64) : EReal :=
  act (∑ k : Fin 64, (e k + s k) * Ws k j + bs j) + act (∑ k : Fin 64, (e k * s k) * Wb k j + bb j)

/-- Entry `j` of the row divided by its length, the length bounded below. -/
def rowN (x : Fin 64 → EReal) (j : Fin 64) : EReal :=
  Ideal.div (x j) (max (Ideal.sqrt (∑ q : Fin 64, x q * x q)) (Ideal.ofBits .f32 0x2B8CBCCC#32))

variable {R : ℕ}

/-- `rowE` on every row of an array of `R` rows. -/
def layerE (ego side : FVec Ideal ⟨2, ![R, 64]⟩ .f32) (Ws : FVec Ideal ⟨2, ![64, 64]⟩ .f32) (bs : Fin 64 → EReal)
    (Wb : FVec Ideal ⟨2, ![64, 64]⟩ .f32) (bb : Fin 64 → EReal) : FVec Ideal ⟨2, ![R, 64]⟩ .f32 :=
  fun i => rowE (fun k => ego (ix2 (i 0) k)) (fun k => side (ix2 (i 0) k)) (fun k j => Ws (ix2 k j)) bs
    (fun k j => Wb (ix2 k j)) bb (i 1)

/-- `rowN` on every row of an array of `R` rows. -/
def layerN (x : FVec Ideal ⟨2, ![R, 64]⟩ .f32) : FVec Ideal ⟨2, ![R, 64]⟩ .f32 :=
  fun i => rowN (fun q => x (ix2 (i 0) q)) (i 1)

theorem layerE_apply (ego side : FVec Ideal ⟨2, ![R, 64]⟩ .f32) (Ws : FVec Ideal ⟨2, ![64, 64]⟩ .f32) (bs : Fin 64 → EReal)
    (Wb : FVec Ideal ⟨2, ![64, 64]⟩ .f32) (bb : Fin 64 → EReal) (r : Fin R) (j : Fin 64) :
    layerE ego side Ws bs Wb bb (ix2 r j)
      = rowE (fun k => ego (ix2 r k)) (fun k => side (ix2 r k)) (fun k j => Ws (ix2 k j)) bs (fun k j => Wb (ix2 k j)) bb j := rfl

theorem layerN_apply (x : FVec Ideal ⟨2, ![R, 64]⟩ .f32) (r : Fin R) (j : Fin 64) :
    layerN x (ix2 r j) = rowN (fun q => x (ix2 r q)) j := rfl

end Cert.Spec

end
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.KIdeal.Value0.lean ====
/-
  The first layer's kernel region as whole-array functions, over the extended reals.

  Point `t` of the grid computes rows 5000·t … 5000·t + 4999, and a row of either result depends only on the same row of
  the two row arrays and on the weights: window 6's array ends as `Spec.layerE` of the region-entry arrays and window
  7's as `Spec.layerN` of that, every row covered by exactly the point `row / 5000`.

  First the body's two stored values are read at an entry (p, q) of a block, over any contents of the six input
  blocks: the combined rows are `Spec.rowE` of row `p` (`payE_apply`) and the normalised rows `Spec.rowN` of the
  combined row `p` (`payN_apply`). Then the input blocks at point `t` are read off the arrays (`blockEgo_apply` …
  `blockBb_eq`), so that what point `t` writes back is block `t` of the whole-array function (`flushedE_eq`,
  `flushedN_eq`); the blocks cover the arrays (`cover6`, `cover7`), which gives `arrE` and `arrN`.
-/
import proofs.«108768_j30846455120404_1_alg».proof.Proof.KIdeal.Region0
import proofs.«108768_j30846455120404_1_alg».proof.Proof.Spec
import proofs.«108768_j30846455120404_1_alg».proof.Proof.LibDense
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val0

open Cert.KernelIdeal Cert.KernelIdeal.Gen
open Idealize.ShloMosaic Idealize.ShloMosaic.TcCoe Idealize.ShloMosaic.ValueIdx
open Idealize.ShloMosaic.Pipeline (Dat)

/-! ## The body's stored values at an entry of the block -/

/-- The two zero offsets of a whole-block access, spelt as the constant function. -/
theorem hz : (![0, 0] : Fin 2 → Nat) = fun _ => 0 := funext fun a => by fin_cases a <;> rfl

/-- The printed product's dimension numbers are the rows-by-columns ones. -/
theorem dot_plain : dot_S5000x64_S64x64_S5000x64_1_0_0_1_n_n = DotDims.plain 5000 64 64 := rfl

/-- An affine map of the block's rows, as the body spells it — the product into a zero accumulator plus the one-row
    bias laid along every row — read at (p, q). -/
theorem affine_apply {φ₁ φ₂ : FTy} (d : DotDims S5000x64 S64x64 S5000x64) (hd : d = DotDims.plain 5000 64 64)
    (h : FVec Ideal S5000x64 φ₁) (W : FVec Ideal S64x64 φ₂) (b : FVec Ideal S1x64 .f32)
    (hb : S1x64.Broadcasts S5000x64) (p : Fin 5000) (q : Fin 64) :
    addf (matmul d none h W (constant (F := Ideal) S5000x64 .f32 0x00000000#32)) (broadcastTo S5000x64 b hb) (ix2 p q)
      = ∑ k : Fin 64, h (ix2 p k) * W (ix2 k q) + b (ix2 (0 : Fin 1) q) := by
  subst hd
  show FloatOps.matmul (DotDims.plain 5000 64 64) none h W (constant ⟨2, ![5000, 64]⟩ .f32 0x00000000#32) (ix2 p q)
      + broadcastTo ⟨2, ![5000, 64]⟩ b hb (ix2 p q) = _
  rw [Cert.LibDense.matmul_plain_zero_apply, broadcastTo_1b_ab_apply]

/-- The body's two slope activations added, read at an index: `Spec.act` of each operand there. -/
theorem act_add_apply (A B : FVec Ideal S5000x64 .f32) (i : S5000x64.Idx) :
    addf
        (select (cmpf .oge A (broadcast S5000x64 (Scalar.ofBits (F := Ideal) .f32 0x00000000#32))) A
          (mulf (broadcast S5000x64 (Scalar.ofBits (F := Ideal) .f32 0x3C23D70A#32)) A))
        (select (cmpf .oge B (broadcast S5000x64 (Scalar.ofBits (F := Ideal) .f32 0x00000000#32))) B
          (mulf (broadcast S5000x64 (Scalar.ofBits (F := Ideal) .f32 0x3C23D70A#32)) B)) i
      = Cert.Spec.act (A i) + Cert.Spec.act (B i) := rfl

/-- The block's combined rows read at (p, q): `Spec.rowE` of row `p` of the two row blocks, the weights and the bias rows. -/
theorem payE_apply (x0 x1 : Vec Ideal S5000x64 .f32) (x2 : Vec Ideal S64x64 .f32) (x3 : Vec Ideal S1x64 .f32)
    (x4 : Vec Ideal S64x64 .f32) (x5 : Vec Ideal S1x64 .f32) (p : Fin 5000) (q : Fin 64) :
    Rg0.payE x0 x1 x2 x3 x4 x5 (ix2 p q)
      = Cert.Spec.rowE (fun k => x0 (ix2 p k)) (fun k => x1 (ix2 p k)) (fun k j => x2 (ix2 k j)) (fun j => x3 (ix2 (0 : Fin 1) j))
          (fun k j => x4 (ix2 k j)) (fun j => x5 (ix2 (0 : Fin 1) j)) q := by
  unfold Rg0.payE
  rw [View.ld_unit_zero (S := S5000x64) hz, View.ld_unit_zero (S := S5000x64) hz, View.ld_unit_zero (S := S64x64) hz,
    View.ld_unit_zero (S := S64x64) hz, View.ld_unit_zero (S := S1x64) hz, View.ld_unit_zero (S := S1x64) hz]
  unfold k0_pay2
  simp only [shapeCast_self]
  refine (act_add_apply _ _ _).trans ?_
  rw [affine_apply _ dot_plain, affine_apply _ dot_plain]
  rfl

/-- The sum along a row of the block, read at row `p`. -/
theorem rowsum_apply (X : FVec Ideal S5000x64 .f32) (h : S5000x64.Reduces [1] S5000) (hφ : FKind.Formats .f32)
    (hacc : (0x00000000#32 : BitVec 32) = FKind.add.neutral .f32 hφ) (p : Fin 5000) :
    multiReduction .add [1] S5000 X 0x00000000#32 h hφ hacc (ix1 p) = ∑ k : Fin 64, X (ix2 p k) := by
  rw [Ideal.multiReduction_add_single]
  show ∑ k : Fin 64, X (h.lift (ix1 p) k) = _
  refine Finset.sum_congr rfl fun k _ => congrArg X ?_
  funext a
  apply Fin.ext
  match a with
  | ⟨0, _⟩ => rfl
  | ⟨1, _⟩ => rfl

/-- A vector of row values viewed as a one-column block reads, at (p, 0), the value of row `p`. -/
theorem column_apply {α : Type} (v : S5000.Idx → α) (h : S5000.ShapeCasts S5000x1) (p : Fin 5000) (u : Fin 1) :
    shapeCast S5000x1 v h (ix2 p u) = v (ix1 p) :=
  shapeCast_apply v h _ _ (by
    have hu : u.val = 0 := by omega
    rw [Shape.rowMajor_val_one, Shape.rowMajor_val_two]
    show p.val = p.val * 1 + u.val
    omega)

/-- A one-column block laid along every column reads, at (p, q), its value at (p, 0). -/
theorem along_columns_apply {α : Type} (v : S5000x1.Idx → α) (h : S5000x1.Broadcasts S5000x64) (p : Fin 5000) (q : Fin 64) :
    broadcastTo S5000x64 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- Rows divided by their lengths, as the body spells it — each row's sum of squares, its square root kept as a
    one-column block, bounded below by the tiny constant, laid along the columns, and the division — read at (p, q):
    `Spec.rowN` of row `p`. -/
theorem normalise_apply (X : FVec Ideal S5000x64 .f32) (p : Fin 5000) (q : Fin 64) :
    divf X
        (broadcastTo S5000x64
          (maximumf
            (sqrt (shapeCast S5000x1
              (multiReduction .add [1] S5000 (mulf X X) 0x00000000#32 reduces_S5000x64_S5000 (.inl rfl) rfl) shapeCasts_S5000_S5000x1))
            (broadcast S5000x1 (Scalar.ofBits (F := Ideal) .f32 0x2B8CBCCC#32)))
          broadcasts_S5000x1_S5000x64) (ix2 p q)
      = Cert.Spec.rowN (fun q' => X (ix2 p q')) q := by
  show Ideal.div (X (ix2 p q)) (broadcastTo S5000x64 _ broadcasts_S5000x1_S5000x64 (ix2 p q)) = _
  rw [along_columns_apply]
  show Ideal.div (X (ix2 p q))
      (max (Ideal.sqrt (shapeCast S5000x1 _ shapeCasts_S5000_S5000x1 (ix2 p (0 : Fin 1)))) (Ideal.ofBits .f32 0x2B8CBCCC#32)) = _
  rw [column_apply]
  exact congrArg (fun s => Ideal.div (X (ix2 p q)) (max (Ideal.sqrt s) (Ideal.ofBits .f32 0x2B8CBCCC#32)))
    (rowsum_apply (mulf X X) _ _ _ p)

/-- The block's normalised rows read at (p, q): `Spec.rowN` of row `p` of the block's combined rows. -/
theorem payN_apply (x0 x1 : Vec Ideal S5000x64 .f32) (x2 : Vec Ideal S64x64 .f32) (x3 : Vec Ideal S1x64 .f32)
    (x4 : Vec Ideal S64x64 .f32) (x5 : Vec Ideal S1x64 .f32) (p : Fin 5000) (q : Fin 64) :
    Rg0.payN x0 x1 x2 x3 x4 x5 (ix2 p q) = Cert.Spec.rowN (fun q' => Rg0.payE x0 x1 x2 x3 x4 x5 (ix2 p q')) q := by
  unfold Rg0.payN k0_pay1 k0_pay3
  exact normalise_apply (Rg0.payE x0 x1 x2 x3 x4 x5) p q

/-! ## The input blocks at a point, read off the arrays -/

variable (V : (c : Dev nD) → (b : Ref sig .tc) → Buf (Elt Ideal) ((c : Thread nD τ).loc b))

/-- The layer before normalisation, of the region-entry arrays: the rows, the aggregated rows, the two weight
    matrices and the two one-row bias arrays. -/
def E (c : Dev nD) : FVec Ideal S100000x64 .f32 :=
  Cert.Spec.layerE (R := 100000) (V c main_arg0) (V c main_v12) (V c main_arg2) (fun j => V c main_v13 (ix2 (0 : Fin 1) j))
    (V c main_arg4) (fun j => V c main_v14 (ix2 (0 : Fin 1) j))

/-- The printed index maps, decided over the grid: the row windows' block index is (t, 0), the whole windows' (0, 0). -/
theorem idx_facts : ∀ t : Fin cfg0.N,
    (cfg0.win 0).index t (0 : Fin 2) = t.val ∧ (cfg0.win 0).index t (1 : Fin 2) = 0
    ∧ (cfg0.win 1).index t (0 : Fin 2) = t.val ∧ (cfg0.win 1).index t (1 : Fin 2) = 0
    ∧ (cfg0.win 2).index t (0 : Fin 2) = 0 ∧ (cfg0.win 2).index t (1 : Fin 2) = 0
    ∧ (cfg0.win 3).index t (0 : Fin 2) = 0 ∧ (cfg0.win 3).index t (1 : Fin 2) = 0
    ∧ (cfg0.win 4).index t (0 : Fin 2) = 0 ∧ (cfg0.win 4).index t (1 : Fin 2) = 0
    ∧ (cfg0.win 5).index t (0 : Fin 2) = 0 ∧ (cfg0.win 5).index t (1 : Fin 2) = 0
    ∧ (cfg0.win 6).index t (0 : Fin 2) = t.val ∧ (cfg0.win 6).index t (1 : Fin 2) = 0
    ∧ (cfg0.win 7).index t (0 : Fin 2) = t.val ∧ (cfg0.win 7).index t (1 : Fin 2) = 0 :=
  (by decide +kernel : ∀ t : Fin grid0.N, _)

/-- The grid has 20 points. -/
theorem grid_points : cfg0.N = 20 := (by decide : grid0.N = 20)

/-- Both output windows are written back at every point. -/
theorem flushes : ∀ t : Fin cfg0.N, (cfg0.win 6).flush t = true ∧ (cfg0.win 7).flush t = true :=
  (by decide +kernel : ∀ t : Fin grid0.N, _)

/-- Window 0's block at point `t` is rows 5000·t … 5000·t + 4999 of its array. -/
theorem blockEgo_apply (c : Dev nD) (t : Fin cfg0.N) (x : S5000x64.Idx) (k : S100000x64.Idx)
    (hk0 : (k 0).val = 5000 * t.val + (x 0).val) (hk1 : (k 1).val = (x 1).val) :
    (Rg0.iblk V c 0 t : Vec Ideal S5000x64 .f32) x = (V c main_arg0 : S100000x64.Idx → Elt Ideal .f32) k := by
  obtain ⟨e0, e1, -⟩ := idx_facts t
  unfold Rg0.iblk
  rw [View.read_apply]
  show V c main_arg0 _ = V c main_arg0 _
  congr 1
  funext a
  apply Fin.ext
  match a with
  | ⟨0, _⟩ => show (cfg0.win 0).index t (0 : Fin 2) * 5000 + 1 * (x 0).val = (k 0).val; rw [e0, hk0]; omega
  | ⟨1, _⟩ => show (cfg0.win 0).index t (1 : Fin 2) * 64 + 1 * (x 1).val = (k 1).val; rw [e1, hk1]; omega

/-- Window 1's block at point `t` is the same rows of its array. -/
theorem blockSide_apply (c : Dev nD) (t : Fin cfg0.N) (x : S5000x64.Idx) (k : S100000x64.Idx)
    (hk0 : (k 0).val = 5000 * t.val + (x 0).val) (hk1 : (k 1).val = (x 1).val) :
    (Rg0.iblk V c 1 t : Vec Ideal S5000x64 .f32) x = (V c main_v12 : S100000x64.Idx → Elt Ideal .f32) k := by
  obtain ⟨-, -, e0, e1, -⟩ := idx_facts t
  unfold Rg0.iblk
  rw [View.read_apply]
  show V c main_v12 _ = V c main_v12 _
  congr 1
  funext a
  apply Fin.ext
  match a with
  | ⟨0, _⟩ => show (cfg0.win 1).index t (0 : Fin 2) * 5000 + 1 * (x 0).val = (k 0).val; rw [e0, hk0]; omega
  | ⟨1, _⟩ => show (cfg0.win 1).index t (1 : Fin 2) * 64 + 1 * (x 1).val = (k 1).val; rw [e1, hk1]; omega

/-- Windows 2 to 5 hand the body their whole arrays at every point. -/
theorem blockWs_eq (c : Dev nD) (t : Fin cfg0.N) : (Rg0.iblk V c 2 t : Vec Ideal S64x64 .f32) = V c main_arg2 := by
  obtain ⟨-, -, -, -, e0, e1, -⟩ := idx_facts t
  funext x
  unfold Rg0.iblk
  rw [View.read_apply]
  show V c main_arg2 _ = V c main_arg2 x
  congr 1
  funext a
  apply Fin.ext
  match a with
  | ⟨0, _⟩ => show (cfg0.win 2).index t (0 : Fin 2) * 64 + 1 * (x 0).val = (x 0).val; rw [e0]; omega
  | ⟨1, _⟩ => show (cfg0.win 2).index t (1 : Fin 2) * 64 + 1 * (x 1).val = (x 1).val; rw [e1]; omega
theorem blockBs_eq (c : Dev nD) (t : Fin cfg0.N) : (Rg0.iblk V c 3 t : Vec Ideal S1x64 .f32) = V c main_v13 := by
  obtain ⟨-, -, -, -, -, -, e0, e1, -⟩ := idx_facts t
  funext x
  unfold Rg0.iblk
  rw [View.read_apply]
  show V c main_v13 _ = V c main_v13 x
  congr 1
  funext a
  apply Fin.ext
  match a with
  | ⟨0, _⟩ => show (cfg0.win 3).index t (0 : Fin 2) * 1 + 1 * (x 0).val = (x 0).val; rw [e0]; omega
  | ⟨1, _⟩ => show (cfg0.win 3).index t (1 : Fin 2) * 64 + 1 * (x 1).val = (x 1).val; rw [e1]; omega
theorem blockWb_eq (c : Dev nD) (t : Fin cfg0.N) : (Rg0.iblk V c 4 t : Vec Ideal S64x64 .f32) = V c main_arg4 := by
  obtain ⟨-, -, -, -, -, -, -, -, e0, e1, -⟩ := idx_facts t
  funext x
  unfold Rg0.iblk
  rw [View.read_apply]
  show V c main_arg4 _ = V c main_arg4 x
  congr 1
  funext a
  apply Fin.ext
  match a with
  | ⟨0, _⟩ => show (cfg0.win 4).index t (0 : Fin 2) * 64 + 1 * (x 0).val = (x 0).val; rw [e0]; omega
  | ⟨1, _⟩ => show (cfg0.win 4).index t (1 : Fin 2) * 64 + 1 * (x 1).val = (x 1).val; rw [e1]; omega
theorem blockBb_eq (c : Dev nD) (t : Fin cfg0.N) : (Rg0.iblk V c 5 t : Vec Ideal S1x64 .f32) = V c main_v14 := by
  obtain ⟨-, -, -, -, -, -, -, -, -, -, e0, e1, -⟩ := idx_facts t
  funext x
  unfold Rg0.iblk
  rw [View.read_apply]
  show V c main_v14 _ = V c main_v14 x
  congr 1
  funext a
  apply Fin.ext
  match a with
  | ⟨0, _⟩ => show (cfg0.win 5).index t (0 : Fin 2) * 1 + 1 * (x 0).val = (x 0).val; rw [e0]; omega
  | ⟨1, _⟩ => show (cfg0.win 5).index t (1 : Fin 2) * 64 + 1 * (x 1).val = (x 1).val; rw [e1]; omega

/-! ## What a point writes back -/

/-- Row `5000·t + p` of an array of 100000 rows, for a point `t` of the grid and a row `p` of a block. -/
def rowAt (t : Fin cfg0.N) (p : Fin 5000) : Fin 100000 :=
  ⟨5000 * t.val + p.val, by have := t.isLt; have hN : cfg0.N = 20 := grid_points; have := p.isLt; omega⟩

/-- The combined rows of the input blocks at point `t`, read at (p, q): entry (5000·t + p, q) of `E`. -/
theorem payE_iblk (c : Dev nD) (t : Fin cfg0.N) (p : Fin 5000) (q : Fin 64) :
    Rg0.payE (Rg0.iblk V c 0 t) (Rg0.iblk V c 1 t) (Rg0.iblk V c 2 t) (Rg0.iblk V c 3 t) (Rg0.iblk V c 4 t) (Rg0.iblk V c 5 t) (ix2 p q)
      = E V c (ix2 (rowAt t p) q) := by
  rw [payE_apply, blockWs_eq, blockBs_eq, blockWb_eq, blockBb_eq]
  unfold E
  rw [Cert.Spec.layerE_apply]
  have h0 : ∀ k : Fin 64, (Rg0.iblk V c 0 t : Vec Ideal S5000x64 .f32) (ix2 p k) = (V c main_arg0 : S100000x64.Idx → Elt Ideal .f32) (ix2 (rowAt t p) k) :=
    fun k => blockEgo_apply V c t _ _ rfl rfl
  have h1 : ∀ k : Fin 64, (Rg0.iblk V c 1 t : Vec Ideal S5000x64 .f32) (ix2 p k) = (V c main_v12 : S100000x64.Idx → Elt Ideal .f32) (ix2 (rowAt t p) k) :=
    fun k => blockSide_apply V c t _ _ rfl rfl
  simp only [h0, h1]

/-- The normalised rows of the input blocks at point `t`, read at (p, q): entry (5000·t + p, q) of `Spec.layerN` of `E`. -/
theorem payN_iblk (c : Dev nD) (t : Fin cfg0.N) (p : Fin 5000) (q : Fin 64) :
    Rg0.payN (Rg0.iblk V c 0 t) (Rg0.iblk V c 1 t) (Rg0.iblk V c 2 t) (Rg0.iblk V c 3 t) (Rg0.iblk V c 4 t) (Rg0.iblk V c 5 t) (ix2 p q)
      = Cert.Spec.layerN (R := 100000) (E V c) (ix2 (rowAt t p) q) := by
  rw [payN_apply, Cert.Spec.layerN_apply]
  simp only [payE_iblk]

/-- An element (p, q) of an output window's block at point `t` sits at (5000·t + p, q) of the array. -/
theorem emb6 (t : Fin cfg0.N) (p : Fin 5000) (q : Fin 64) :
    ((cfg0.win 6).blk t).view.emb (ix2 p q) = (ix2 (rowAt t p) q : S100000x64.Idx) := by
  obtain ⟨-, -, -, -, -, -, -, -, -, -, -, -, e0, e1, -⟩ := idx_facts t
  funext a
  apply Fin.ext
  match a with
  | ⟨0, _⟩ => show (cfg0.win 6).index t (0 : Fin 2) * 5000 + 1 * p.val = 5000 * t.val + p.val; rw [e0]; omega
  | ⟨1, _⟩ => show (cfg0.win 6).index t (1 : Fin 2) * 64 + 1 * q.val = q.val; rw [e1]; omega
theorem emb7 (t : Fin cfg0.N) (p : Fin 5000) (q : Fin 64) :
    ((cfg0.win 7).blk t).view.emb (ix2 p q) = (ix2 (rowAt t p) q : S100000x64.Idx) := by
  obtain ⟨-, -, -, -, -, -, -, -, -, -, -, -, -, -, e0, e1⟩ := idx_facts t
  funext a
  apply Fin.ext
  match a with
  | ⟨0, _⟩ => show (cfg0.win 7).index t (0 : Fin 2) * 5000 + 1 * p.val = 5000 * t.val + p.val; rw [e0]; omega
  | ⟨1, _⟩ => show (cfg0.win 7).index t (1 : Fin 2) * 64 + 1 * q.val = q.val; rw [e1]; omega

/-- What point `t` writes back to window 6's array is block `t` of `E`. -/
theorem flushedE_eq (c : Dev nD) (t : Fin cfg0.N) :
    (Rg0.dat V c).flushed 6 t = ((cfg0.win 6).blk t).view.read (Elt Ideal) (E V c) := by
  show (cfg0.win 6).cut (grid0.coords t) ((Rg0.dat V c).after 6 t) = _
  rw [Rg0.after6]
  unfold Rg0.outE
  rw [View.canon_unit_zero hz]
  funext y
  obtain ⟨p, q, rfl⟩ : ∃ (p : Fin 5000) (q : Fin 64), y = ix2 p q := ⟨y 0, y 1, eq_ix2 y⟩
  rw [View.read_apply, emb6]
  exact payE_iblk V c t p q

/-- What point `t` writes back to window 7's array is block `t` of `Spec.layerN` of `E`. -/
theorem flushedN_eq (c : Dev nD) (t : Fin cfg0.N) :
    (Rg0.dat V c).flushed 7 t = ((cfg0.win 7).blk t).view.read (Elt Ideal) (Cert.Spec.layerN (R := 100000) (E V c)) := by
  show (cfg0.win 7).cut (grid0.coords t) ((Rg0.dat V c).after 7 t) = _
  rw [Rg0.after7]
  unfold Rg0.outN
  rw [View.canon_unit_zero hz]
  funext y
  obtain ⟨p, q, rfl⟩ : ∃ (p : Fin 5000) (q : Fin 64), y = ix2 p q := ⟨y 0, y 1, eq_ix2 y⟩
  rw [View.read_apply, emb7]
  exact payN_iblk V c t p q

/-! ## The blocks cover the arrays -/

/-- An index of the array is in point `t`'s block of an output window iff each coordinate is in the block's range. -/
theorem mem_blk6 (t : Fin cfg0.N) (i : S100000x64.Idx) :
    i ∈ ((cfg0.win 6).blk t).view.set
      ↔ ∀ a : Fin 2, (cfg0.win 6).index t a * S5000x64.size a ≤ (i a).val ∧ (i a).val < (cfg0.win 6).index t a * S5000x64.size a + S5000x64.size a := by
  show i ∈ ((View.whole (Pipeline.arrRef spec0 6)).slice ((cfg0.win 6).rect t)).set ↔ _
  rw [View.set_slice_whole, Rect.mem_set_unit]
  exact Iff.rfl
theorem mem_blk7 (t : Fin cfg0.N) (i : S100000x64.Idx) :
    i ∈ ((cfg0.win 7).blk t).view.set
      ↔ ∀ a : Fin 2, (cfg0.win 7).index t a * S5000x64.size a ≤ (i a).val ∧ (i a).val < (cfg0.win 7).index t a * S5000x64.size a + S5000x64.size a := by
  show i ∈ ((View.whole (Pipeline.arrRef spec0 7)).slice ((cfg0.win 7).rect t)).set ↔ _
  rw [View.set_slice_whole, Rect.mem_set_unit]
  exact Iff.rfl

/-- Row `r` of an output array is in the block of point `r / 5000`, which writes back. -/
theorem cover6 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := grid_points
  obtain ⟨t, ht⟩ : ∃ t : Fin cfg0.N, t.val = (i 0).val / 5000 := ⟨⟨(i 0).val / 5000, by omega⟩, rfl⟩
  obtain ⟨-, -, -, -, -, -, -, -, -, -, -, -, e0, e1, -⟩ := idx_facts t
  refine ⟨t, (flushes t).1, ?_⟩
  rw [mem_blk6]
  intro a
  match a with
  | ⟨0, _⟩ =>
    show (cfg0.win 6).index t (0 : Fin 2) * 5000 ≤ (i 0).val ∧ (i 0).val < (cfg0.win 6).index t (0 : Fin 2) * 5000 + 5000
    rw [e0, ht]; omega
  | ⟨1, _⟩ =>
    show (cfg0.win 6).index t (1 : Fin 2) * 64 ≤ (i 1).val ∧ (i 1).val < (cfg0.win 6).index t (1 : Fin 2) * 64 + 64
    rw [e1]; omega
theorem cover7 (i : S100000x64.Idx) : ∃ t : Fin cfg0.N, (cfg0.win 7).flush t = true ∧ i ∈ ((cfg0.win 7).blk t).view.set := by
  have hi0 : (i 0).val < 100000 := (i 0).isLt
  have hi1 : (i 1).val < 64 := (i 1).isLt
  have hN : cfg0.N = 20 := grid_points
  obtain ⟨t, ht⟩ : ∃ t : Fin cfg0.N, t.val = (i 0).val / 5000 := ⟨⟨(i 0).val / 5000, by omega⟩, rfl⟩
  obtain ⟨-, -, -, -, -, -, -, -, -, -, -, -, -, -, e0, e1⟩ := idx_facts t
  refine ⟨t, (flushes t).2, ?_⟩
  rw [mem_blk7]
  intro a
  match a with
  | ⟨0, _⟩ =>
    show (cfg0.win 7).index t (0 : Fin 2) * 5000 ≤ (i 0).val ∧ (i 0).val < (cfg0.win 7).index t (0 : Fin 2) * 5000 + 5000
    rw [e0, ht]; omega
  | ⟨1, _⟩ =>
    show (cfg0.win 7).index t (1 : Fin 2) * 64 ≤ (i 1).val ∧ (i 1).val < (cfg0.win 7).index t (1 : Fin 2) * 64 + 64
    rw [e1]; omega

/-! ## The arrays after the region -/

/-- Window 6's array after the region. -/
theorem arrE (c : Dev nD) : (Rg0.dat V c).arrAt 6 cfg0.N = E V c :=
  (Rg0.dat V c).arrAt_eq_of_cover 6 (E V c) (fun t _ => flushedE_eq V c t) cover6

/-- Window 7's array after the region. -/
theorem arrN (c : Dev nD) : (Rg0.dat V c).arrAt 7 cfg0.N = Cert.Spec.layerN (R := 100000) (E V c) :=
  (Rg0.dat V c).arrAt_eq_of_cover 7 (Cert.Spec.layerN (R := 100000) (E V c)) (fun t _ => flushedN_eq V c t) cover7

end Cert.KernelIdeal.Val0

end
-- ==== Proof.KIdeal.Final.lean ====
/-
  The program's result over the extended reals, as a function of the launch contents of its arguments.

  `e1` is the first layer before normalisation (of the node rows and their aggregated neighbour rows), `e2` the second
  layer before normalisation, fed `e1` and its aggregated rows. The result array is the node rows beside the two
  normalised layers. The first region finds the arguments as launched and the aggregated rows and one-row biases
  the first stretch made; the second region finds `e1` in the first region's output and what the second stretch made
  of it.
-/
import proofs.«108768_j30846455120404_1_alg».proof.Proof.KIdeal.Run
import proofs.«108768_j30846455120404_1_alg».proof.Proof.KIdeal.Host
import proofs.«108768_j30846455120404_1_alg».proof.Proof.KIdeal.Value0
import proofs.«108768_j30846455120404_1_alg».proof.Proof.KIdeal.Value1

set_option maxRecDepth 16384

noncomputable section

namespace Cert.KernelIdeal.Final

open Cert.KernelIdeal Cert.KernelIdeal.Gen
open Idealize.ShloMosaic Idealize.ShloMosaic.TcCoe Idealize.ShloMosaic.ValueIdx

variable (m : (ℓ : Loc nD τ sig) → Buf (Elt Ideal) ℓ)

/-- The first layer before normalisation. -/
def e1 (c : Dev nD) : FVec Ideal S100000x64 .f32 :=
  Cert.Spec.layerE (R := 100000) (m ((c : Thread nD τ).loc main_arg0)) (Host.spmm (m ((c : Thread nD τ).loc main_arg0)) (m ((c : Thread nD τ).loc main_arg1)) (m ((c : Thread nD τ).loc main_arg10)) (m ((c : Thread nD τ).loc main_arg11)))
    (m ((c : Thread nD τ).loc main_arg2)) (fun j => (m ((c : Thread nD τ).loc main_arg3)) (ix1 j)) (m ((c : Thread nD τ).loc main_arg4)) (fun j => (m ((c : Thread nD τ).loc main_arg5)) (ix1 j))

/-- The second layer before normalisation. -/
def e2 (c : Dev nD) : FVec Ideal S100000x64 .f32 :=
  Cert.Spec.layerE (R := 100000) (e1 m c) (Host.spmm (e1 m c) (m ((c : Thread nD τ).loc main_arg1)) (m ((c : Thread nD τ).loc main_arg10)) (m ((c : Thread nD τ).loc main_arg11)))
    (m ((c : Thread nD τ).loc main_arg6)) (fun j => (m ((c : Thread nD τ).loc main_arg7)) (ix1 j)) (m ((c : Thread nD τ).loc main_arg8)) (fun j => (m ((c : Thread nD τ).loc main_arg9)) (ix1 j))

/-- The first region computes `e1`. -/
theorem first_layer (c : Dev nD) : Val0.E (Run.U1 m) c = e1 m c := by
  unfold Val0.E e1
  have h0 : Run.U1 m c main_arg0 = (m ((c : Thread nD τ).loc main_arg0)) := Run.B1_of m c main_arg0 (by decide)
  have h2 : Run.U1 m c main_arg2 = (m ((c : Thread nD τ).loc main_arg2)) := Run.B1_of m c main_arg2 (by decide)
  have h4 : Run.U1 m c main_arg4 = (m ((c : Thread nD τ).loc main_arg4)) := Run.B1_of m c main_arg4 (by decide)
  have hs : Run.U1 m c main_v12 = Host.spmm (m ((c : Thread nD τ).loc main_arg0)) (m ((c : Thread nD τ).loc main_arg1)) (m ((c : Thread nD τ).loc main_arg10)) (m ((c : Thread nD τ).loc main_arg11)) :=
    Host.first_side (Run.B0 m c)
  have hb3 : (fun j : Fin 64 => Run.U1 m c main_v13 (ix2 (0 : Fin 1) j)) = fun j => (m ((c : Thread nD τ).loc main_arg3)) (ix1 j) := funext fun j => by
    rw [show Run.U1 m c main_v13 = shapeCast S1x64 (m ((c : Thread nD τ).loc main_arg3)) shapeCasts_S64_S1x64 from Host.first_bias_sum (Run.B0 m c)]
    exact Host.bias_row _ j
  have hb5 : (fun j : Fin 64 => Run.U1 m c main_v14 (ix2 (0 : Fin 1) j)) = fun j => (m ((c : Thread nD τ).loc main_arg5)) (ix1 j) := funext fun j => by
    rw [show Run.U1 m c main_v14 = shapeCast S1x64 (m ((c : Thread nD τ).loc main_arg5)) shapeCasts_S64_S1x64 from Host.first_bias_prod (Run.B0 m c)]
    exact Host.bias_row _ j
  rw [h0, h2, h4, hs, hb3, hb5]

/-- The first region's un-normalised output, as the second stretch and the second region find it. -/
theorem mid (c : Dev nD) : Run.B2 m c (Proc.devRef .tc main_v15_0) = e1 m c :=
  (Run.B2_arr m c 6).trans ((Val0.arrE (Run.U1 m) c).trans (first_layer m c))

/-- An argument neither stretch writes and the first region does not write is as launched when the second region is
    entered. -/
theorem keep (c : Dev nD) (r : Ref sig .tc) (h1 : r ∉ hostOps1_W) (h2 : ∀ w, Pipeline.arrRef spec0 w ≠ r) (h0 : r ∉ hostOps0_W) :
    Run.B3 m c (Proc.devRef .tc r) = m ((c : Thread nD τ).loc r) :=
  (Run.B3_of m c r h1).trans ((Run.B2_of_ne m c r h2).trans (Run.B1_of m c r h0))

/-- The second region computes `e2`. -/
theorem second_layer (c : Dev nD) : Val1.E (Run.U3 m) c = e2 m c := by
  unfold Val1.E e2
  have h0 : Run.U3 m c main_v15_0 = e1 m c := (Run.B3_of m c main_v15_0 (by decide)).trans (mid m c)
  have h6 : Run.U3 m c main_arg6 = (m ((c : Thread nD τ).loc main_arg6)) := keep m c main_arg6 (by decide) (by decide) (by decide)
  have h8 : Run.U3 m c main_arg8 = (m ((c : Thread nD τ).loc main_arg8)) := keep m c main_arg8 (by decide) (by decide) (by decide)
  have g1 : Run.B2 m c (Proc.devRef .tc main_arg1) = (m ((c : Thread nD τ).loc main_arg1)) := (Run.B2_of_ne m c main_arg1 (by decide)).trans (Run.B1_of m c main_arg1 (by decide))
  have g10 : Run.B2 m c (Proc.devRef .tc main_arg10) = (m ((c : Thread nD τ).loc main_arg10)) := (Run.B2_of_ne m c main_arg10 (by decide)).trans (Run.B1_of m c main_arg10 (by decide))
  have g11 : Run.B2 m c (Proc.devRef .tc main_arg11) = (m ((c : Thread nD τ).loc main_arg11)) := (Run.B2_of_ne m c main_arg11 (by decide)).trans (Run.B1_of m c main_arg11 (by decide))
  have g7 : Run.B2 m c (Proc.devRef .tc main_arg7) = (m ((c : Thread nD τ).loc main_arg7)) := (Run.B2_of_ne m c main_arg7 (by decide)).trans (Run.B1_of m c main_arg7 (by decide))
  have g9 : Run.B2 m c (Proc.devRef .tc main_arg9) = (m ((c : Thread nD τ).loc main_arg9)) := (Run.B2_of_ne m c main_arg9 (by decide)).trans (Run.B1_of m c main_arg9 (by decide))
  have hs : Run.U3 m c main_v28 = Host.spmm (e1 m c) (m ((c : Thread nD τ).loc main_arg1)) (m ((c : Thread nD τ).loc main_arg10)) (m ((c : Thread nD τ).loc main_arg11)) := by
    refine (Host.second_side (Run.B2 m c)).trans ?_
    rw [mid m c, g1, g10, g11]
  have hb7 : (fun j : Fin 64 => Run.U3 m c main_v29 (ix2 (0 : Fin 1) j)) = fun j => (m ((c : Thread nD τ).loc main_arg7)) (ix1 j) := funext fun j => by
    rw [show Run.U3 m c main_v29 = shapeCast S1x64 (m ((c : Thread nD τ).loc main_arg7)) shapeCasts_S64_S1x64 from (Host.second_bias_sum (Run.B2 m c)).trans (by rw [g7])]
    exact Host.bias_row _ j
  have hb9 : (fun j : Fin 64 => Run.U3 m c main_v30 (ix2 (0 : Fin 1) j)) = fun j => (m ((c : Thread nD τ).loc main_arg9)) (ix1 j) := funext fun j => by
    rw [show Run.U3 m c main_v30 = shapeCast S1x64 (m ((c : Thread nD τ).loc main_arg9)) shapeCasts_S64_S1x64 from (Host.second_bias_prod (Run.B2 m c)).trans (by rw [g9])]
    exact Host.bias_row _ j
  rw [h0, h6, h8, hs, hb7, hb9]

/-- The result array: the node rows, the first layer normalised, the second layer normalised, side by side. -/
theorem result (c : Dev nD) :
    Run.B5 m c (Proc.devRef .tc main_v32)
      = concatenate S100000x192 1
          [⟨S100000x64, (m ((c : Thread nD τ).loc main_arg0))⟩, ⟨S100000x64, Cert.Spec.layerN (R := 100000) (e1 m c)⟩,
            ⟨S100000x64, Cert.Spec.layerN (R := 100000) (e2 m c)⟩]
          concatenates_S100000x64_S100000x64_S100000x64_S100000x192_d1 := by
  have k0 : Run.B4 m c (Proc.devRef .tc main_arg0) = (m ((c : Thread nD τ).loc main_arg0)) :=
    (Run.B5_of m c main_arg0 (by decide)).symm.trans (Run.B5_main_arg0 m c)
  have k1 : Run.B4 m c (Proc.devRef .tc main_v15_1) = Cert.Spec.layerN (R := 100000) (e1 m c) :=
    (Run.B4_of_ne m c main_v15_1 (by decide)).trans <| (Run.B3_of m c main_v15_1 (by decide)).trans <|
      (Run.B2_arr m c 7).trans <| (Val0.arrN (Run.U1 m) c).trans (by rw [first_layer m c])
  have k2 : Run.B4 m c (Proc.devRef .tc main_v31_1) = Cert.Spec.layerN (R := 100000) (e2 m c) :=
    (Run.B4_arr m c 7).trans <| (Val1.arrN (Run.U3 m) c).trans (by rw [second_layer m c])
  rw [Run.B5_main_v32 m c, k0, k1, k2]

end Cert.KernelIdeal.Final

end
-- ==== Proof.RefTerm.lean ====
/-
  The reference program's result as one term of its arguments, in named stages.

  `spmm`: rows gathered at the destination indices (a negative index wrapped once by the row count), each scaled by
  its edge weight, and summed into the rows named by the source indices of a zero array. `leaky`: the slope
  activation, entry by entry. `dense`: the rows-by-columns product with a weight matrix plus the bias laid along
  every row. `layerE`: the activated affine image of `ego + side` plus that of `ego · side`. `layerN`: each row
  divided by its Euclidean length, the length bounded below. `out`: the input beside the normalised results of two
  such layers, the second layer fed the first layer's un-normalised result.
-/
import proofs.«108768_j30846455120404_1_alg».proof.Proof.Gen.ReferenceIdeal

noncomputable section

namespace Cert.ReferenceIdeal.Term

open Cert.ReferenceIdeal Cert.ReferenceIdeal.Gen Idealize.ShloMosaic

variable {F : FTy → Type} [FloatOps F]

/-- Gather rows at `dst`, scale by `w`, add into the rows `src` of a zero array. -/
def spmm (x : (⟨S100000x64, .f32⟩ : BufTy).Contents (Elt F)) (w : (⟨S1600000, .f32⟩ : BufTy).Contents (Elt F))
    (src dst : (⟨S1600000, .i32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 src)
    (mulf
      (Host.gather gather_S100000x64_S1600000x1_S1600000x64_1_0_n_n_0_1_164 x
        (broadcastInDim S1600000x1 ![0] bcast_S1600000_S1600000x1_0
          (select (cmpi .slt dst (broadcastInDim S1600000 ![] bcast_S_S1600000 (constantI S_ 32 0#32)))
            (addi dst (broadcastInDim S1600000 ![] bcast_S_S1600000 (constantI S_ 32 100000#32))) dst)))
      (broadcastInDim S1600000x64 ![0, 1] bcast_S1600000x1_S1600000x64_0_1
        (broadcastInDim S1600000x1 ![0] bcast_S1600000_S1600000x1_0 w)))

/-- The slope activation on every entry. -/
def leaky (x : (⟨S100000x64, .f32⟩ : BufTy).Contents (Elt F)) : (⟨S100000x64, .f32⟩ : BufTy).Contents (Elt F) :=
  select (cmpf .oge x (broadcastInDim S100000x64 ![] bcast_S_S100000x64 (constant S_ .f32 0x00000000#32))) x
    (mulf (broadcastInDim S100000x64 ![] bcast_S_S100000x64 (id (constant S_ .f32 0x3C23D70A#32))) x)

/-- The product with a weight matrix plus the bias along every row. -/
def dense (x : (⟨S100000x64, .f32⟩ : BufTy).Contents (Elt F)) (W : (⟨S64x64, .f32⟩ : BufTy).Contents (Elt F))
    (b : (⟨S64, .f32⟩ : BufTy).Contents (Elt F)) : (⟨S100000x64, .f32⟩ : BufTy).Contents (Elt F) :=
  addf (Host.dotGeneral dot_S100000x64_S64x64_S100000x64_1_0_0_1_n_n none x W)
    (broadcastInDim S100000x64 ![0, 1] bcast_S1x64_S100000x64_0_1 (broadcastInDim S1x64 ![1] bcast_S64_S1x64_1 b))

/-- One layer before normalisation. -/
def layerE (ego side : (⟨S100000x64, .f32⟩ : BufTy).Contents (Elt F)) (Ws : (⟨S64x64, .f32⟩ : BufTy).Contents (Elt F))
    (bs : (⟨S64, .f32⟩ : BufTy).Contents (Elt F)) (Wb : (⟨S64x64, .f32⟩ : BufTy).Contents (Elt F))
    (bb : (⟨S64, .f32⟩ : BufTy).Contents (Elt F)) : (⟨S100000x64, .f32⟩ : BufTy).Contents (Elt F) :=
  addf (leaky (dense (addf ego side) Ws bs)) (leaky (dense (mulf ego side) Wb bb))

/-- Every row's Euclidean length, as a column. -/
def norm (x : (⟨S100000x64, .f32⟩ : BufTy).Contents (Elt F)) : (⟨S100000x1, .f32⟩ : BufTy).Contents (Elt F) :=
  Host.sqrt (broadcastInDim S100000x1 ![0] bcast_S100000_S100000x1_0
    (Host.reduceAdd (mulf x x) (constant S_ .f32 0x00000000#32) reducesTo_S100000x64_S100000_d1 h_S_))

/-- Every row divided by its length, the length bounded below. -/
def layerN (x : (⟨S100000x64, .f32⟩ : BufTy).Contents (Elt F)) : (⟨S100000x64, .f32⟩ : BufTy).Contents (Elt F) :=
  Host.divf x (broadcastInDim S100000x64 ![0, 1] bcast_S100000x1_S100000x64_0_1
    (maximumf (norm x) (broadcastInDim S100000x1 ![] bcast_S_S100000x1 (constant S_ .f32 0x2B8CBCCC#32))))

/-- The first layer's un-normalised result. -/
def e1 (a0 : (⟨S100000x64, .f32⟩ : BufTy).Contents (Elt F)) (a1 : (⟨S1600000, .f32⟩ : BufTy).Contents (Elt F))
    (a2 : (⟨S64x64, .f32⟩ : BufTy).Contents (Elt F)) (a3 : (⟨S64, .f32⟩ : BufTy).Contents (Elt F))
    (a4 : (⟨S64x64, .f32⟩ : BufTy).Contents (Elt F)) (a5 : (⟨S64, .f32⟩ : BufTy).Contents (Elt F))
    (a10 a11 : (⟨S1600000, .i32⟩ : BufTy).Contents (Elt F)) : (⟨S100000x64, .f32⟩ : BufTy).Contents (Elt F) :=
  layerE a0 (spmm a0 a1 a10 a11) a2 a3 a4 a5

/-- The second layer's un-normalised result. -/
def e2 (a0 : (⟨S100000x64, .f32⟩ : BufTy).Contents (Elt F)) (a1 : (⟨S1600000, .f32⟩ : BufTy).Contents (Elt F))
    (a2 : (⟨S64x64, .f32⟩ : BufTy).Contents (Elt F)) (a3 : (⟨S64, .f32⟩ : BufTy).Contents (Elt F))
    (a4 : (⟨S64x64, .f32⟩ : BufTy).Contents (Elt F)) (a5 : (⟨S64, .f32⟩ : BufTy).Contents (Elt F))
    (a6 : (⟨S64x64, .f32⟩ : BufTy).Contents (Elt F)) (a7 : (⟨S64, .f32⟩ : BufTy).Contents (Elt F))
    (a8 : (⟨S64x64, .f32⟩ : BufTy).Contents (Elt F)) (a9 : (⟨S64, .f32⟩ : BufTy).Contents (Elt F))
    (a10 a11 : (⟨S1600000, .i32⟩ : BufTy).Contents (Elt F)) : (⟨S100000x64, .f32⟩ : BufTy).Contents (Elt F) :=
  layerE (e1 a0 a1 a2 a3 a4 a5 a10 a11) (spmm (e1 a0 a1 a2 a3 a4 a5 a10 a11) a1 a10 a11) a6 a7 a8 a9

/-- The program's result: the input, the first layer normalised, the second layer normalised, side by side. -/
def out (a0 : (⟨S100000x64, .f32⟩ : BufTy).Contents (Elt F)) (a1 : (⟨S1600000, .f32⟩ : BufTy).Contents (Elt F))
    (a2 : (⟨S64x64, .f32⟩ : BufTy).Contents (Elt F)) (a3 : (⟨S64, .f32⟩ : BufTy).Contents (Elt F))
    (a4 : (⟨S64x64, .f32⟩ : BufTy).Contents (Elt F)) (a5 : (⟨S64, .f32⟩ : BufTy).Contents (Elt F))
    (a6 : (⟨S64x64, .f32⟩ : BufTy).Contents (Elt F)) (a7 : (⟨S64, .f32⟩ : BufTy).Contents (Elt F))
    (a8 : (⟨S64x64, .f32⟩ : BufTy).Contents (Elt F)) (a9 : (⟨S64, .f32⟩ : BufTy).Contents (Elt F))
    (a10 a11 : (⟨S1600000, .i32⟩ : BufTy).Contents (Elt F)) : (⟨S100000x192, .f32⟩ : BufTy).Contents (Elt F) :=
  concatenate S100000x192 1
    [⟨S100000x64, a0⟩, ⟨S100000x64, layerN (e1 a0 a1 a2 a3 a4 a5 a10 a11)⟩,
      ⟨S100000x64, layerN (e2 a0 a1 a2 a3 a4 a5 a6 a7 a8 a9 a10 a11)⟩]
    concatenates_S100000x64_S100000x64_S100000x64_S100000x192_d1

end Cert.ReferenceIdeal.Term

end
-- ==== Proof.RefRun.lean ====
/-
  The reference program's run: every weakly fair execution of its @main terminates with the result array at
  `Term.out` of the argument arrays and every argument array unchanged.

  @main is a straight line of 107 array operations once its calls are read as the callee's operations over the call's own
  buffers. The line is cut into eight stages, one for each named stage of `Term.out`: two sparse products, two layers
  before normalisation (the second split where the program's two windows meet), two normalisations, and the final
  side-by-side placement. Each stage is read on its own, from ANY contents `W` of the buffers: its result buffer ends at
  the stage's term of what `W` holds in the buffers it reads, and a buffer it does not write keeps what `W` holds. The
  stages are then chained: the contents before a stage are the contents after the stages before it.
-/
import proofs.«108768_j30846455120404_1_alg».proof.Proof.RefTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]
/-! ## The operations, stage by stage -/

/-- The first sparse product (16 operations, result `main_v12`): the destination indices, a negative one wrapped once by the
    row count; the rows gathered at them, each scaled by its edge weight laid along the row; the sum of those rows into the
    rows the source indices name of a zero array. -/
def opsA : List (HloOp τ sig (Elt F)) :=
  [ nullary main_c (constantI S_ 32 0#32),
    unary main_c main_v0 (broadcastInDim S1600000 ![] bcast_S_S1600000 : (⟨S_, .i32⟩ : BufTy).Contents (Elt F) → (⟨S1600000, .i32⟩ : BufTy).Contents (Elt F)),
    binary main_arg11 main_v0 main_v1 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v2 (broadcastInDim S1600000 ![] bcast_S_S1600000 : (⟨S_, .i32⟩ : BufTy).Contents (Elt F) → (⟨S1600000, .i32⟩ : BufTy).Contents (Elt F)),
    binary main_arg11 main_v2 main_v3 (addi : (⟨S1600000, .i32⟩ : BufTy).Contents (Elt F) → (⟨S1600000, .i32⟩ : BufTy).Contents (Elt F) → (⟨S1600000, .i32⟩ : BufTy).Contents (Elt F)),
    ternary main_v1 main_v3 main_arg11 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v4 main_v5 (broadcastInDim S1600000x1 ![0] bcast_S1600000_S1600000x1_0 : (⟨S1600000, .i32⟩ : BufTy).Contents (Elt F) → (⟨S1600000x1, .i32⟩ : BufTy).Contents (Elt F)),
    binary main_arg0 main_v5 main_v6 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg1 main_v7 (broadcastInDim S1600000x1 ![0] bcast_S1600000_S1600000x1_0 : (⟨S1600000, .f32⟩ : BufTy).Contents (Elt F) → (⟨S1600000x1, .f32⟩ : BufTy).Contents (Elt F)),
    unary main_v7 main_v8 (broadcastInDim S1600000x64 ![0, 1] bcast_S1600000x1_S1600000x64_0_1 : (⟨S1600000x1, .f32⟩ : BufTy).Contents (Elt F) → (⟨S1600000x64, .f32⟩ : BufTy).Contents (Elt F)),
    binary main_v6 main_v8 main_v9 (mulf : (⟨S1600000x64, .f32⟩ : BufTy).Contents (Elt F) → (⟨S1600000x64, .f32⟩ : BufTy).Contents (Elt F) → (⟨S1600000x64, .f32⟩ : BufTy).Contents (Elt F)),
    nullary main_cst (constant S_ .f32 0x00000000#32),
    unary main_cst main_v10 (broadcastInDim S100000x64 ![] bcast_S_S100000x64 : (⟨S_, .f32⟩ : BufTy).Contents (Elt F) → (⟨S100000x64, .f32⟩ : BufTy).Contents (Elt F)),
    unary main_arg10 main_v11 (broadcastInDim S1600000x1 ![0] bcast_S1600000_S1600000x1_0 : (⟨S1600000, .i32⟩ : BufTy).Contents (Elt F) → (⟨S1600000x1, .i32⟩ : BufTy).Contents (Elt F)),
    ternary main_v10 main_v11 main_v9 main_v12 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The first layer before normalisation (27 operations, result `main_v25`): the affine image of `ego + side` and that of
    `ego · side` — a product with a weight matrix plus the bias laid along every row —, each through the slope activation
    (its seven operations over its own call's buffers: the zero array, the comparison, the slope converted and broadcast, the
    scaled input, the choice), and the sum of the two. -/
def opsB : List (HloOp τ sig (Elt F)) :=
  [ binary main_arg0 main_v12 main_v13 (addf : (⟨S100000x64, .f32⟩ : BufTy).Contents (Elt F) → (⟨S100000x64, .f32⟩ : BufTy).Contents (Elt F) → (⟨S100000x64, .f32⟩ : BufTy).Contents (Elt F)),
    binary main_v13 main_arg2 main_v14 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg3 main_v15 (broadcastInDim S1x64 ![1] bcast_S64_S1x64_1 : (⟨S64, .f32⟩ : BufTy).Contents (Elt F) → (⟨S1x64, .f32⟩ : BufTy).Contents (Elt F)),
    unary main_v15 main_v16 (broadcastInDim S100000x64 ![0, 1] bcast_S1x64_S100000x64_0_1 : (⟨S1x64, .f32⟩ : BufTy).Contents (Elt F) → (⟨S100000x64, .f32⟩ : BufTy).Contents (Elt F)),
    binary main_v14 main_v16 main_v17 (addf : (⟨S100000x64, .f32⟩ : BufTy).Contents (Elt F) → (⟨S100000x64, .f32⟩ : BufTy).Contents (Elt F) → (⟨S100000x64, .f32⟩ : BufTy).Contents (Elt F)),
    nullary main_cst_1 (constant S_ .f32 0x3C23D70A#32),
    TRef.nullary main_call0.cst (constant S_ .f32 0x00000000#32),
    TRef.unary main_call0.cst main_call0.v0 (broadcastInDim S100000x64 ![] bcast_S_S100000x64),
    TRef.binary (.of main_v17) main_call0.v0 main_call0.v1 (cmpf .oge),
    TRef.unary (.of main_cst_1) main_call0.v2 id,
    TRef.unary main_call0.v2 main_call0.v3 (broadcastInDim S100000x64 ![] bcast_S_S100000x64),
    TRef.binary main_call0.v3 (.of main_v17) main_call0.v4 mulf,
    TRef.ternary main_call0.v1 (.of main_v17) main_call0.v4 main_call0.call0.v0 select,
    binary main_arg0 main_v12 main_v19 (mulf : (⟨S100000x64, .f32⟩ : BufTy).Contents (Elt F) → (⟨S100000x64, .f32⟩ : BufTy).Contents (Elt F) → (⟨S100000x64, .f32⟩ : BufTy).Contents (Elt F)),
    binary main_v19 main_arg4 main_v20 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg5 main_v21 (broadcastInDim S1x64 ![1] bcast_S64_S1x64_1 : (⟨S64, .f32⟩ : BufTy).Contents (Elt F) → (⟨S1x64, .f32⟩ : BufTy).Contents (Elt F)),
    unary main_v21 main_v22 (broadcastInDim S100000x64 ![0, 1] bcast_S1x64_S100000x64_0_1 : (⟨S1x64, .f32⟩ : BufTy).Contents (Elt F) → (⟨S100000x64, .f32⟩ : BufTy).Contents (Elt F)),
    binary main_v20 main_v22 main_v23 (addf : (⟨S100000x64, .f32⟩ : BufTy).Contents (Elt F) → (⟨S100000x64, .f32⟩ : BufTy).Contents (Elt F) → (⟨S100000x64, .f32⟩ : BufTy).Contents (Elt F)),
    nullary main_cst_2 (constant S_ .f32 0x3C23D70A#32),
    TRef.nullary main_call1.cst (constant S_ .f32 0x00000000#32),
    TRef.unary main_call1.cst main_call1.v0 (broadcastInDim S100000x64 ![] bcast_S_S100000x64),
    TRef.binary (.of main_v23) main_call1.v0 main_call1.v1 (cmpf .oge),
    TRef.unary (.of main_cst_2) main_call1.v2 id,
    TRef.unary main_call1.v2 main_call1.v3 (broadcastInDim S100000x64 ![] bcast_S_S100000x64),
    TRef.binary main_call1.v3 (.of main_v23) main_call1.v4 mulf,
    TRef.ternary main_call1.v1 (.of main_v23) main_call1.v4 main_call1.call0.v0 select,
    binary main_v18 main_v24 main_v25 (addf : (⟨S100000x64, .f32⟩ : BufTy).Contents (Elt F) → (⟨S100000x64, .f32⟩ : BufTy).Contents (Elt F) → (⟨S100000x64, .f32⟩ : BufTy).Contents (Elt F)) ]

/-- The first layer normalised (10 operations, result `main_v30`): the row lengths (the length function's five operations
    over its call's buffers: the squares, the zero, the sum along each row, the column, the root), the lower bound
    broadcast, the larger of the two, laid along every row, and the quotient. -/
def opsC : List (HloOp τ sig (Elt F)) :=
  [ TRef.binary (.of main_v25) (.of main_v25) main_call2.v0 mulf,
    TRef.nullary main_call2.cst (constant S_ .f32 0x00000000#32),
    TRef.binary main_call2.v0 main_call2.cst main_call2.v1 (fun x v => Host.reduceAdd x v reducesTo_S100000x64_S100000_d1 h_S_),
    TRef.unary main_call2.v1 main_call2.v2 (broadcastInDim S100000x1 ![0] bcast_S100000_S100000x1_0),
    TRef.unary main_call2.v2 main_call2.v3 Host.sqrt,
    nullary main_cst_3 (constant S_ .f32 0x2B8CBCCC#32),
    unary main_cst_3 main_v27 (broadcastInDim S100000x1 ![] bcast_S_S100000x1 : (⟨S_, .f32⟩ : BufTy).Contents (Elt F) → (⟨S100000x1, .f32⟩ : BufTy).Contents (Elt F)),
    binary main_v26 main_v27 main_v28 (maximumf : (⟨S100000x1, .f32⟩ : BufTy).Contents (Elt F) → (⟨S100000x1, .f32⟩ : BufTy).Contents (Elt F) → (⟨S100000x1, .f32⟩ : BufTy).Contents (Elt F)),
    unary main_v28 main_v29 (broadcastInDim S100000x64 ![0, 1] bcast_S100000x1_S100000x64_0_1 : (⟨S100000x1, .f32⟩ : BufTy).Contents (Elt F) → (⟨S100000x64, .f32⟩ : BufTy).Contents (Elt F)),
    binary main_v25 main_v29 main_v30 (Host.divf : (⟨S100000x64, .f32⟩ : BufTy).Contents (Elt F) → (⟨S100000x64, .f32⟩ : BufTy).Contents (Elt F) → (⟨S100000x64, .f32⟩ : BufTy).Contents (Elt F)) ]

/-- The second sparse product (16 operations, result `main_v43`): as the first, the rows gathered from the first layer's
    un-normalised result `main_v25`. -/
def opsD : List (HloOp τ sig (Elt F)) :=
  [ nullary main_c_4 (constantI S_ 32 0#32),
    unary main_c_4 main_v31 (broadcastInDim S1600000 ![] bcast_S_S1600000 : (⟨S_, .i32⟩ : BufTy).Contents (Elt F) → (⟨S1600000, .i32⟩ : BufTy).Contents (Elt F)),
    binary main_arg11 main_v31 main_v32 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v33 (broadcastInDim S1600000 ![] bcast_S_S1600000 : (⟨S_, .i32⟩ : BufTy).Contents (Elt F) → (⟨S1600000, .i32⟩ : BufTy).Contents (Elt F)),
    binary main_arg11 main_v33 main_v34 (addi : (⟨S1600000, .i32⟩ : BufTy).Contents (Elt F) → (⟨S1600000, .i32⟩ : BufTy).Contents (Elt F) → (⟨S1600000, .i32⟩ : BufTy).Contents (Elt F)),
    ternary main_v32 main_v34 main_arg11 main_v35 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v35 main_v36 (broadcastInDim S1600000x1 ![0] bcast_S1600000_S1600000x1_0 : (⟨S1600000, .i32⟩ : BufTy).Contents (Elt F) → (⟨S1600000x1, .i32⟩ : BufTy).Contents (Elt F)),
    binary main_v25 main_v36 main_v37 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_arg1 main_v38 (broadcastInDim S1600000x1 ![0] bcast_S1600000_S1600000x1_0 : (⟨S1600000, .f32⟩ : BufTy).Contents (Elt F) → (⟨S1600000x1, .f32⟩ : BufTy).Contents (Elt F)),
    unary main_v38 main_v39 (broadcastInDim S1600000x64 ![0, 1] bcast_S1600000x1_S1600000x64_0_1 : (⟨S1600000x1, .f32⟩ : BufTy).Contents (Elt F) → (⟨S1600000x64, .f32⟩ : BufTy).Contents (Elt F)),
    binary main_v37 main_v39 main_v40 (mulf : (⟨S1600000x64, .f32⟩ : BufTy).Contents (Elt F) → (⟨S1600000x64, .f32⟩ : BufTy).Contents (Elt F) → (⟨S1600000x64, .f32⟩ : BufTy).Contents (Elt F)),
    nullary main_cst_6 (constant S_ .f32 0x00000000#32),
    unary main_cst_6 main_v41 (broadcastInDim S100000x64 ![] bcast_S_S100000x64 : (⟨S_, .f32⟩ : BufTy).Contents (Elt F) → (⟨S100000x64, .f32⟩ : BufTy).Contents (Elt F)),
    unary main_arg10 main_v42 (broadcastInDim S1600000x1 ![0] bcast_S1600000_S1600000x1_0 : (⟨S1600000, .i32⟩ : BufTy).Contents (Elt F) → (⟨S1600000x1, .i32⟩ : BufTy).Contents (Elt F)),
    ternary main_v41 main_v42 main_v40 main_v43 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- The second layer's first branch (13 operations, result `main_v49`): the activated affine image of `ego + side`, `ego`
    the first layer's un-normalised result and `side` the second sparse product. The program's first window ends here. -/
def opsE0 : List (HloOp τ sig (Elt F)) :=
  [ binary main_v25 main_v43 main_v44 (addf : (⟨S100000x64, .f32⟩ : BufTy).Contents (Elt F) → (⟨S100000x64, .f32⟩ : BufTy).Contents (Elt F) → (⟨S100000x64, .f32⟩ : BufTy).Contents (Elt F)),
    binary main_v44 main_arg6 main_v45 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg7 main_v46 (broadcastInDim S1x64 ![1] bcast_S64_S1x64_1 : (⟨S64, .f32⟩ : BufTy).Contents (Elt F) → (⟨S1x64, .f32⟩ : BufTy).Contents (Elt F)),
    unary main_v46 main_v47 (broadcastInDim S100000x64 ![0, 1] bcast_S1x64_S100000x64_0_1 : (⟨S1x64, .f32⟩ : BufTy).Contents (Elt F) → (⟨S100000x64, .f32⟩ : BufTy).Contents (Elt F)),
    binary main_v45 main_v47 main_v48 (addf : (⟨S100000x64, .f32⟩ : BufTy).Contents (Elt F) → (⟨S100000x64, .f32⟩ : BufTy).Contents (Elt F) → (⟨S100000x64, .f32⟩ : BufTy).Contents (Elt F)),
    nullary main_cst_7 (constant S_ .f32 0x3C23D70A#32),
    TRef.nullary main_call3.cst (constant S_ .f32 0x00000000#32),
    TRef.unary main_call3.cst main_call3.v0 (broadcastInDim S100000x64 ![] bcast_S_S100000x64),
    TRef.binary (.of main_v48) main_call3.v0 main_call3.v1 (cmpf .oge),
    TRef.unary (.of main_cst_7) main_call3.v2 id,
    TRef.unary main_call3.v2 main_call3.v3 (broadcastInDim S100000x64 ![] bcast_S_S100000x64),
    TRef.binary main_call3.v3 (.of main_v48) main_call3.v4 mulf,
    TRef.ternary main_call3.v1 (.of main_v48) main_call3.v4 main_call3.call0.v0 select ]

/-- The second layer's second branch and the sum (14 operations, result `main_v56`): the activated affine image of
    `ego · side`, added to the first branch. -/
def opsE1 : List (HloOp τ sig (Elt F)) :=
  [ binary main_v25 main_v43 main_v50 (mulf : (⟨S100000x64, .f32⟩ : BufTy).Contents (Elt F) → (⟨S100000x64, .f32⟩ : BufTy).Contents (Elt F) → (⟨S100000x64, .f32⟩ : BufTy).Contents (Elt F)),
    binary main_v50 main_arg8 main_v51 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg9 main_v52 (broadcastInDim S1x64 ![1] bcast_S64_S1x64_1 : (⟨S64, .f32⟩ : BufTy).Contents (Elt F) → (⟨S1x64, .f32⟩ : BufTy).Contents (Elt F)),
    unary main_v52 main_v53 (broadcastInDim S100000x64 ![0, 1] bcast_S1x64_S100000x64_0_1 : (⟨S1x64, .f32⟩ : BufTy).Contents (Elt F) → (⟨S100000x64, .f32⟩ : BufTy).Contents (Elt F)),
    binary main_v51 main_v53 main_v54 (addf : (⟨S100000x64, .f32⟩ : BufTy).Contents (Elt F) → (⟨S100000x64, .f32⟩ : BufTy).Contents (Elt F) → (⟨S100000x64, .f32⟩ : BufTy).Contents (Elt F)),
    nullary main_cst_8 (constant S_ .f32 0x3C23D70A#32),
    TRef.nullary main_call4.cst (constant S_ .f32 0x00000000#32),
    TRef.unary main_call4.cst main_call4.v0 (broadcastInDim S100000x64 ![] bcast_S_S100000x64),
    TRef.binary (.of main_v54) main_call4.v0 main_call4.v1 (cmpf .oge),
    TRef.unary (.of main_cst_8) main_call4.v2 id,
    TRef.unary main_call4.v2 main_call4.v3 (broadcastInDim S100000x64 ![] bcast_S_S100000x64),
    TRef.binary main_call4.v3 (.of main_v54) main_call4.v4 mulf,
    TRef.ternary main_call4.v1 (.of main_v54) main_call4.v4 main_call4.call0.v0 select,
    binary main_v49 main_v55 main_v56 (addf : (⟨S100000x64, .f32⟩ : BufTy).Contents (Elt F) → (⟨S100000x64, .f32⟩ : BufTy).Contents (Elt F) → (⟨S100000x64, .f32⟩ : BufTy).Contents (Elt F)) ]

/-- The second layer normalised (10 operations, result `main_v61`): as the first. -/
def opsF : List (HloOp τ sig (Elt F)) :=
  [ TRef.binary (.of main_v56) (.of main_v56) main_call5.v0 mulf,
    TRef.nullary main_call5.cst (constant S_ .f32 0x00000000#32),
    TRef.binary main_call5.v0 main_call5.cst main_call5.v1 (fun x v => Host.reduceAdd x v reducesTo_S100000x64_S100000_d1 h_S_),
    TRef.unary main_call5.v1 main_call5.v2 (broadcastInDim S100000x1 ![0] bcast_S100000_S100000x1_0),
    TRef.unary main_call5.v2 main_call5.v3 Host.sqrt,
    nullary main_cst_9 (constant S_ .f32 0x2B8CBCCC#32),
    unary main_cst_9 main_v58 (broadcastInDim S100000x1 ![] bcast_S_S100000x1 : (⟨S_, .f32⟩ : BufTy).Contents (Elt F) → (⟨S100000x1, .f32⟩ : BufTy).Contents (Elt F)),
    binary main_v57 main_v58 main_v59 (maximumf : (⟨S100000x1, .f32⟩ : BufTy).Contents (Elt F) → (⟨S100000x1, .f32⟩ : BufTy).Contents (Elt F) → (⟨S100000x1, .f32⟩ : BufTy).Contents (Elt F)),
    unary main_v59 main_v60 (broadcastInDim S100000x64 ![0, 1] bcast_S100000x1_S100000x64_0_1 : (⟨S100000x1, .f32⟩ : BufTy).Contents (Elt F) → (⟨S100000x64, .f32⟩ : BufTy).Contents (Elt F)),
    binary main_v56 main_v60 main_v61 (Host.divf : (⟨S100000x64, .f32⟩ : BufTy).Contents (Elt F) → (⟨S100000x64, .f32⟩ : BufTy).Contents (Elt F) → (⟨S100000x64, .f32⟩ : BufTy).Contents (Elt F)) ]

/-- The result (1 operation, `main_v62`): the input, the first layer normalised and the second layer normalised, side by
    side along the columns. -/
def opsG : List (HloOp τ sig (Elt F)) :=
  [ nary ![main_arg0, main_v30, main_v61] main_v62 (fun u => concatenate S100000x192 1 [⟨S100000x64, u 0⟩, ⟨S100000x64, u 1⟩, ⟨S100000x64, u 2⟩] concatenates_S100000x64_S100000x64_S100000x64_S100000x192_d1) ]

/-! ## What each stage writes, and what it keeps -/

/-- The buffers that `opsA` writes, one an operation, in order. -/
abbrev opsA_W : List (Ref sig .tc) := [main_c, main_v0, main_v1, main_c_0, main_v2, main_v3, main_v4, main_v5, main_v6, main_v7, main_v8, main_v9, main_cst, main_v10, main_v11, main_v12]

theorem opsA_writes : (opsA : List (HloOp τ sig (Elt F))).Forall fun op =>
    op.writes ⊆ (opsA_W.map (Proc.devRef (τ := τ) .tc)).toFinset := by
  simp only [opsA, List.Forall]
  exact ⟨
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide))⟩

/-- A buffer that `opsA` does not write keeps its contents through it. -/
theorem keepA (W : Valuation τ sig (Elt F)) {r : Ref sig .tc} (h : r ∉ opsA_W) :
    after opsA W (no_index (Proc.devRef .tc r)) = W (Proc.devRef .tc r) :=
  after_of_writes_sub opsA W opsA_writes h

/-- The buffers that `opsB` writes, one an operation, in order. -/
abbrev opsB_W : List (Ref sig .tc) := [main_v13, main_v14, main_v15, main_v16, main_v17, main_cst_1, main_call0_cst, main_call0_v0, main_call0_v1, main_call0_v2, main_call0_v3, main_call0_v4, main_v18, main_v19, main_v20, main_v21, main_v22, main_v23, main_cst_2, main_call1_cst, main_call1_v0, main_call1_v1, main_call1_v2, main_call1_v3, main_call1_v4, main_v24, main_v25]

theorem opsB_writes : (opsB : List (HloOp τ sig (Elt F))).Forall fun op =>
    op.writes ⊆ (opsB_W.map (Proc.devRef (τ := τ) .tc)).toFinset := by
  simp only [opsB, List.Forall]
  exact ⟨
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide))⟩

/-- A buffer that `opsB` does not write keeps its contents through it. -/
theorem keepB (W : Valuation τ sig (Elt F)) {r : Ref sig .tc} (h : r ∉ opsB_W) :
    after opsB W (no_index (Proc.devRef .tc r)) = W (Proc.devRef .tc r) :=
  after_of_writes_sub opsB W opsB_writes h

/-- The buffers that `opsC` writes, one an operation, in order. -/
abbrev opsC_W : List (Ref sig .tc) := [main_call2_v0, main_call2_cst, main_call2_v1, main_call2_v2, main_v26, main_cst_3, main_v27, main_v28, main_v29, main_v30]

theorem opsC_writes : (opsC : List (HloOp τ sig (Elt F))).Forall fun op =>
    op.writes ⊆ (opsC_W.map (Proc.devRef (τ := τ) .tc)).toFinset := by
  simp only [opsC, List.Forall]
  exact ⟨
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide))⟩

/-- A buffer that `opsC` does not write keeps its contents through it. -/
theorem keepC (W : Valuation τ sig (Elt F)) {r : Ref sig .tc} (h : r ∉ opsC_W) :
    after opsC W (no_index (Proc.devRef .tc r)) = W (Proc.devRef .tc r) :=
  after_of_writes_sub opsC W opsC_writes h

/-- The buffers that `opsD` writes, one an operation, in order. -/
abbrev opsD_W : List (Ref sig .tc) := [main_c_4, main_v31, main_v32, main_c_5, main_v33, main_v34, main_v35, main_v36, main_v37, main_v38, main_v39, main_v40, main_cst_6, main_v41, main_v42, main_v43]

theorem opsD_writes : (opsD : List (HloOp τ sig (Elt F))).Forall fun op =>
    op.writes ⊆ (opsD_W.map (Proc.devRef (τ := τ) .tc)).toFinset := by
  simp only [opsD, List.Forall]
  exact ⟨
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide))⟩

/-- A buffer that `opsD` does not write keeps its contents through it. -/
theorem keepD (W : Valuation τ sig (Elt F)) {r : Ref sig .tc} (h : r ∉ opsD_W) :
    after opsD W (no_index (Proc.devRef .tc r)) = W (Proc.devRef .tc r) :=
  after_of_writes_sub opsD W opsD_writes h

/-- The buffers that `opsE0` writes, one an operation, in order. -/
abbrev opsE0_W : List (Ref sig .tc) := [main_v44, main_v45, main_v46, main_v47, main_v48, main_cst_7, main_call3_cst, main_call3_v0, main_call3_v1, main_call3_v2, main_call3_v3, main_call3_v4, main_v49]

theorem opsE0_writes : (opsE0 : List (HloOp τ sig (Elt F))).Forall fun op =>
    op.writes ⊆ (opsE0_W.map (Proc.devRef (τ := τ) .tc)).toFinset := by
  simp only [opsE0, List.Forall]
  exact ⟨
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide))⟩

/-- A buffer that `opsE0` does not write keeps its contents through it. -/
theorem keepE0 (W : Valuation τ sig (Elt F)) {r : Ref sig .tc} (h : r ∉ opsE0_W) :
    after opsE0 W (no_index (Proc.devRef .tc r)) = W (Proc.devRef .tc r) :=
  after_of_writes_sub opsE0 W opsE0_writes h

/-- The buffers that `opsE1` writes, one an operation, in order. -/
abbrev opsE1_W : List (Ref sig .tc) := [main_v50, main_v51, main_v52, main_v53, main_v54, main_cst_8, main_call4_cst, main_call4_v0, main_call4_v1, main_call4_v2, main_call4_v3, main_call4_v4, main_v55, main_v56]

theorem opsE1_writes : (opsE1 : List (HloOp τ sig (Elt F))).Forall fun op =>
    op.writes ⊆ (opsE1_W.map (Proc.devRef (τ := τ) .tc)).toFinset := by
  simp only [opsE1, List.Forall]
  exact ⟨
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide))⟩

/-- A buffer that `opsE1` does not write keeps its contents through it. -/
theorem keepE1 (W : Valuation τ sig (Elt F)) {r : Ref sig .tc} (h : r ∉ opsE1_W) :
    after opsE1 W (no_index (Proc.devRef .tc r)) = W (Proc.devRef .tc r) :=
  after_of_writes_sub opsE1 W opsE1_writes h

/-- The buffers that `opsF` writes, one an operation, in order. -/
abbrev opsF_W : List (Ref sig .tc) := [main_call5_v0, main_call5_cst, main_call5_v1, main_call5_v2, main_v57, main_cst_9, main_v58, main_v59, main_v60, main_v61]

theorem opsF_writes : (opsF : List (HloOp τ sig (Elt F))).Forall fun op =>
    op.writes ⊆ (opsF_W.map (Proc.devRef (τ := τ) .tc)).toFinset := by
  simp only [opsF, List.Forall]
  exact ⟨
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide))⟩

/-- A buffer that `opsF` does not write keeps its contents through it. -/
theorem keepF (W : Valuation τ sig (Elt F)) {r : Ref sig .tc} (h : r ∉ opsF_W) :
    after opsF W (no_index (Proc.devRef .tc r)) = W (Proc.devRef .tc r) :=
  after_of_writes_sub opsF W opsF_writes h

/-- The buffers that `opsG` writes, one an operation, in order. -/
abbrev opsG_W : List (Ref sig .tc) := [main_v62]

theorem opsG_writes : (opsG : List (HloOp τ sig (Elt F))).Forall fun op =>
    op.writes ⊆ (opsG_W.map (Proc.devRef (τ := τ) .tc)).toFinset := by
  unfold opsG
  change HloOp.writes _ ⊆ _
  rw [nary_writes, Finset.singleton_subset_iff, List.mem_toFinset]
  exact List.mem_map_of_mem (by decide)

/-- A buffer that `opsG` does not write keeps its contents through it. -/
theorem keepG (W : Valuation τ sig (Elt F)) {r : Ref sig .tc} (h : r ∉ opsG_W) :
    after opsG W (no_index (Proc.devRef .tc r)) = W (Proc.devRef .tc r) :=
  after_of_writes_sub opsG W opsG_writes h

/-! ## Each stage's result, from any contents -/

/-- From any contents `W`, `opsA` leaves `main_v12` at the sparse product of the four argument arrays as `W` holds them. -/
theorem stA (W : Valuation τ sig (Elt F)) :
    after opsA W (no_index (Proc.devRef .tc main_v12)) = Term.spmm (W (Proc.devRef .tc main_arg0)) (W (Proc.devRef .tc main_arg1)) (W (Proc.devRef .tc main_arg10)) (W (Proc.devRef .tc main_arg11)) := by
  unfold opsA Term.spmm
  after_results_simp <;> rfl

/-- From any contents `W`, `opsB` leaves `main_v25` at the un-normalised layer of `W`'s `main_arg0`, `main_v12` and the four
    weight arrays. -/
theorem stB (W : Valuation τ sig (Elt F)) :
    after opsB W (no_index (Proc.devRef .tc main_v25)) = Term.layerE (W (Proc.devRef .tc main_arg0)) (W (Proc.devRef .tc main_v12)) (W (Proc.devRef .tc main_arg2)) (W (Proc.devRef .tc main_arg3)) (W (Proc.devRef .tc main_arg4)) (W (Proc.devRef .tc main_arg5)) := by
  unfold opsB Term.layerE Term.leaky Term.dense
  after_results_simp <;> rfl

/-- From any contents `W`, `opsC` leaves `main_v30` at `W`'s `main_v25` with every row divided by its bounded length. -/
theorem stC (W : Valuation τ sig (Elt F)) :
    after opsC W (no_index (Proc.devRef .tc main_v30)) = Term.layerN (W (Proc.devRef .tc main_v25)) := by
  unfold opsC Term.layerN Term.norm
  after_results_simp <;> rfl

/-- From any contents `W`, `opsD` leaves `main_v43` at the sparse product of `W`'s `main_v25` with the edge arrays. -/
theorem stD (W : Valuation τ sig (Elt F)) :
    after opsD W (no_index (Proc.devRef .tc main_v43)) = Term.spmm (W (Proc.devRef .tc main_v25)) (W (Proc.devRef .tc main_arg1)) (W (Proc.devRef .tc main_arg10)) (W (Proc.devRef .tc main_arg11)) := by
  unfold opsD Term.spmm
  after_results_simp <;> rfl

/-- From any contents `W`, `opsE0` leaves `main_v49` at the activated affine image of `main_v25 + main_v43` as `W` holds them. -/
theorem stE0 (W : Valuation τ sig (Elt F)) :
    after opsE0 W (no_index (Proc.devRef .tc main_v49)) = Term.leaky (Term.dense (addf (W (Proc.devRef .tc main_v25)) (W (Proc.devRef .tc main_v43))) (W (Proc.devRef .tc main_arg6)) (W (Proc.devRef .tc main_arg7))) := by
  unfold opsE0 Term.leaky Term.dense
  after_results_simp <;> rfl

/-- From any contents `W`, `opsE1` leaves `main_v56` at `W`'s `main_v49` plus the activated affine image of
    `main_v25 · main_v43`. -/
theorem stE1 (W : Valuation τ sig (Elt F)) :
    after opsE1 W (no_index (Proc.devRef .tc main_v56)) = addf (W (Proc.devRef .tc main_v49)) (Term.leaky (Term.dense (mulf (W (Proc.devRef .tc main_v25)) (W (Proc.devRef .tc main_v43))) (W (Proc.devRef .tc main_arg8)) (W (Proc.devRef .tc main_arg9)))) := by
  unfold opsE1 Term.leaky Term.dense
  after_results_simp <;> rfl

/-- From any contents `W`, `opsF` leaves `main_v61` at `W`'s `main_v56` with every row divided by its bounded length. -/
theorem stF (W : Valuation τ sig (Elt F)) :
    after opsF W (no_index (Proc.devRef .tc main_v61)) = Term.layerN (W (Proc.devRef .tc main_v56)) := by
  unfold opsF Term.layerN Term.norm
  after_results_simp <;> rfl

/-- From any contents `W`, `opsG` leaves `main_v62` at `W`'s `main_arg0`, `main_v30` and `main_v61` side by side. -/
theorem stG (W : Valuation τ sig (Elt F)) :
    after opsG W (no_index (Proc.devRef .tc main_v62)) = concatenate S100000x192 1 [⟨S100000x64, (W (Proc.devRef .tc main_arg0))⟩, ⟨S100000x64, (W (Proc.devRef .tc main_v30))⟩, ⟨S100000x64, (W (Proc.devRef .tc main_v61))⟩] concatenates_S100000x64_S100000x64_S100000x64_S100000x192_d1 := by
  unfold opsG
  rw [after_cons, after_nil, nary_result]
  rfl

/-! ## The whole line, and its reading stage by stage -/

/-- The first window's operations. -/
abbrev ops0 : List (HloOp τ sig (Elt F)) := opsA ++ (opsB ++ (opsC ++ (opsD ++ opsE0)))
/-- The second window's operations. -/
abbrev ops1 : List (HloOp τ sig (Elt F)) := opsE1 ++ (opsF ++ opsG)
/-- @main's 107 operations, in order, the calls unfolded. -/
abbrev ops : List (HloOp τ sig (Elt F)) := ops0 ++ ops1

/-- Running two lines in turn is running their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The whole line is the eight stages in turn. -/
theorem after_ops (V : Valuation τ sig (Elt F)) :
    after ops V = after opsG (after opsF (after opsE1 (after opsE0 (after opsD (after opsC (after opsB (after opsA V))))))) := by
  simp only [ops, ops0, ops1, after_app]

/-- After the first two stages `main_v25` holds the first layer's un-normalised result of the launch contents: the
    second stage reads the first's sparse product and six arguments the first does not write. -/
theorem e1_eq (V : Valuation τ sig (Elt F)) :
    after opsB (after opsA V) (no_index (Proc.devRef .tc main_v25)) = Term.e1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg10)) (V (Proc.devRef .tc main_arg11)) := by
  unfold Term.e1
  simp (disch := decide) only [stB, stA, keepA]

/-- After the first six stages `main_v56` holds the second layer's un-normalised result: its two branches read
    `main_v25`, kept since the second stage, the second sparse product of it, and four arguments no stage writes. -/
theorem e2_eq (V : Valuation τ sig (Elt F)) :
    after opsE1 (after opsE0 (after opsD (after opsC (after opsB (after opsA V))))) (no_index (Proc.devRef .tc main_v56)) = Term.e2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  unfold Term.e2 Term.layerE
  simp (disch := decide) only [stE1, stE0, stD, e1_eq, keepA, keepB, keepC, keepD, keepE0]

/-- A buffer none of the first seven stages writes holds its launch contents after them. -/
theorem pre_keep (V : Valuation τ sig (Elt F)) {r : Ref sig .tc}
    (h : r ∉ opsA_W ∧ r ∉ opsB_W ∧ r ∉ opsC_W ∧ r ∉ opsD_W ∧ r ∉ opsE0_W ∧ r ∉ opsE1_W ∧ r ∉ opsF_W) :
    (after opsF (after opsE1 (after opsE0 (after opsD (after opsC (after opsB (after opsA V))))))) (Proc.devRef .tc r) = V (Proc.devRef .tc r) := by
  obtain ⟨hA, hB, hC, hD, hE0, hE1, hF⟩ := h
  rw [keepF _ hF, keepE1 _ hE1, keepE0 _ hE0, keepD _ hD, keepC _ hC, keepB _ hB, keepA _ hA]

/-- Before the last stage `main_v30` holds the first layer normalised: written by the third stage, kept by the four after. -/
theorem v30_eq (V : Valuation τ sig (Elt F)) :
    (after opsF (after opsE1 (after opsE0 (after opsD (after opsC (after opsB (after opsA V))))))) (Proc.devRef .tc main_v30) = Term.layerN (Term.e1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg10)) (V (Proc.devRef .tc main_arg11))) := by
  rw [keepF _ (by decide), keepE1 _ (by decide), keepE0 _ (by decide), keepD _ (by decide), stC, e1_eq]

/-- Before the last stage `main_v61` holds the second layer normalised. -/
theorem v61_eq (V : Valuation τ sig (Elt F)) :
    (after opsF (after opsE1 (after opsE0 (after opsD (after opsC (after opsB (after opsA V))))))) (Proc.devRef .tc main_v61) = Term.layerN (Term.e2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))) := by
  rw [stF, e2_eq]

/-- After the whole line the result buffer holds `Term.out` of the launch contents of the arguments. -/
theorem out_eq (V : Valuation τ sig (Elt F)) :
    after ops V (Proc.devRef .tc main_v62) = Term.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  unfold Term.out
  rw [after_ops, stG, pre_keep V (r := main_arg0) (by decide), v30_eq, v61_eq]

/-- A buffer no stage writes — every argument — holds its launch contents after the whole line. -/
theorem arg_eq (V : Valuation τ sig (Elt F)) {r : Ref sig .tc}
    (h : r ∉ opsA_W ∧ r ∉ opsB_W ∧ r ∉ opsC_W ∧ r ∉ opsD_W ∧ r ∉ opsE0_W ∧ r ∉ opsE1_W ∧ r ∉ opsF_W) (hG : r ∉ opsG_W) :
    after ops V (Proc.devRef .tc r) = V (Proc.devRef .tc r) := by
  rw [after_ops, keepG _ hG, pre_keep V h]

/-! ## @main is that line -/

-- some eighty binds re-associated, one level of recursion a statement
set_option maxRecDepth 8192 in
set_option maxHeartbeats 4000000 in
/-- The first window is its operations run in order: the called functions' definitions unfolded at their calls, both sides
    are one chain of steps once sequencing is re-associated. -/
theorem main_part0_eq (c : Dev nD) : main_part0 (F := F) c = seq ops0 := by
  unfold main_part0 fn_leaky_relu.body fn_where.body fn_norm.body
  simp only [seq, bind_assoc, pure_bind]
  rfl

set_option maxRecDepth 8192 in
set_option maxHeartbeats 4000000 in
/-- The second window likewise. -/
theorem main_part1_eq (c : Dev nD) : main_part1 (F := F) c = seq ops1 := by
  unfold main_part1 fn_leaky_relu.body fn_where.body fn_norm.body
  simp only [seq, bind_assoc, pure_bind]
  rfl

/-- @main, its two windows in turn, is the whole line. -/
theorem main_eq (c : Dev nD) : main (F := F) c = seq ops := by
  show main (F := F) c = seq (ops0 ++ ops1)
  rw [seq_append, ← main_part0_eq c, ← main_part1_eq c]
  rfl

/-! ## The run -/

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

theorem opsB_sub : (opsB : List (HloOp τ sig (Elt F))).Forall fun op => op.bufs ⊆ tcRefs τ sig :=
  ⟨binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩

theorem opsC_sub : (opsC : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩

theorem opsD_sub : (opsD : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

theorem opsE0_sub : (opsE0 : List (HloOp τ sig (Elt F))).Forall fun op => op.bufs ⊆ tcRefs τ sig :=
  ⟨binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

theorem opsE1_sub : (opsE1 : List (HloOp τ sig (Elt F))).Forall fun op => op.bufs ⊆ tcRefs τ sig :=
  ⟨binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩

theorem opsF_sub : (opsF : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩

theorem opsG_sub : (opsG : List (HloOp τ sig (Elt F))).Forall fun op => op.bufs ⊆ tcRefs τ sig :=
  nary_bufs_sub ..

/-- Every operation of the line touches buffers of the core only. -/
theorem ops_sub : (ops : List (HloOp τ sig (Elt F))).Forall fun op => op.bufs ⊆ tcRefs τ sig :=
  List.forall_iff_forall_mem.mpr fun op h => by
    simp only [ops, ops0, ops1, List.mem_append] at h
    rcases h with (h | h | h | h | h) | (h | h | h)
    exacts [List.forall_iff_forall_mem.mp opsA_sub op h,
      List.forall_iff_forall_mem.mp opsB_sub op h,
      List.forall_iff_forall_mem.mp opsC_sub op h,
      List.forall_iff_forall_mem.mp opsD_sub op h,
      List.forall_iff_forall_mem.mp opsE0_sub op h,
      List.forall_iff_forall_mem.mp opsE1_sub op h,
      List.forall_iff_forall_mem.mp opsF_sub op h,
      List.forall_iff_forall_mem.mp opsG_sub op h]

/-- The run of @main read back: the result is `Term.out` of the launch contents of the arguments, and the arguments
    end as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v62)
        = Term.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v62).trans (out_eq (launchContents m c)),
      (h c main_arg0).trans (arg_eq (launchContents m c) (r := main_arg0) (by decide) (by decide)),
      (h c main_arg1).trans (arg_eq (launchContents m c) (r := main_arg1) (by decide) (by decide)),
      (h c main_arg2).trans (arg_eq (launchContents m c) (r := main_arg2) (by decide) (by decide)),
      (h c main_arg3).trans (arg_eq (launchContents m c) (r := main_arg3) (by decide) (by decide)),
      (h c main_arg4).trans (arg_eq (launchContents m c) (r := main_arg4) (by decide) (by decide)),
      (h c main_arg5).trans (arg_eq (launchContents m c) (r := main_arg5) (by decide) (by decide)),
      (h c main_arg6).trans (arg_eq (launchContents m c) (r := main_arg6) (by decide) (by decide)),
      (h c main_arg7).trans (arg_eq (launchContents m c) (r := main_arg7) (by decide) (by decide)),
      (h c main_arg8).trans (arg_eq (launchContents m c) (r := main_arg8) (by decide) (by decide)),
      (h c main_arg9).trans (arg_eq (launchContents m c) (r := main_arg9) (by decide) (by decide)),
      (h c main_arg10).trans (arg_eq (launchContents m c) (r := main_arg10) (by decide) (by decide)),
      (h c main_arg11).trans (arg_eq (launchContents m c) (r := main_arg11) (by decide) (by decide))⟩)
    (run_seq scopedRefs_eq scopedSems_eq defs main (fun _ => ops) main_eq (fun _ => ops_sub) m ρ)

end Cert.ReferenceIdeal.Hand

end
-- ==== Proof.RefValue.lean ====
/-
  The reference's stages read at an index, over the extended reals: its layer before normalisation is `Spec.layerE`
  of its operands and its normalisation is `Spec.layerN`.
-/
import proofs.«108768_j30846455120404_1_alg».proof.Proof.RefTerm
import proofs.«108768_j30846455120404_1_alg».proof.Proof.Spec
import proofs.«108768_j30846455120404_1_alg».proof.Proof.LibDense
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.ReferenceIdeal.RefValue

open Cert.ReferenceIdeal Cert.ReferenceIdeal.Gen Idealize.ShloMosaic Idealize.ShloMosaic.ValueIdx

/-! ## The pointwise stages -/

/-- A scalar constant laid over the whole array reads as the constant at every index. -/
theorem splat_apply (c : BitVec 32) (i : S100000x64.Idx) :
    broadcastInDim S100000x64 ![] bcast_S_S100000x64 (constant (F := Ideal) S_ .f32 c) i = Ideal.ofBits .f32 c :=
  broadcastInDim_apply ![] bcast_S_S100000x64 (constant (F := Ideal) S_ .f32 c) i (fun a => a.elim0) (fun a => a.elim0)

/-- The slope activation reads entry by entry as `Spec.act`. -/
theorem leaky_apply (x : FVec Ideal S100000x64 .f32) (i : S100000x64.Idx) :
    Term.leaky (F := Ideal) x i = Cert.Spec.act (x i) := by
  unfold Term.leaky Cert.Spec.act
  rw [select_apply, cmpf_apply, mulf_apply, splat_apply]
  show Scalar.select (Ideal.cmp .oge (x i) _) (x i)
    (broadcastInDim S100000x64 ![] bcast_S_S100000x64 (constant (F := Ideal) S_ .f32 0x3C23D70A#32) i * x i) = _
  rw [splat_apply]

/-! ## The affine map -/

/-- The product's dimension numbers are the rows-by-columns ones. -/
theorem dot_eq_plain : dot_S100000x64_S64x64_S100000x64_1_0_0_1_n_n = DotDims.plain 100000 64 64 := rfl

/-- The bias vector laid along axis 1 of a one-row matrix and that row down the rows reads, at (r, j), as entry `j`. -/
theorem bias_apply (b : FVec Ideal S64 .f32) (r : Fin 100000) (j : Fin 64) :
    broadcastInDim S100000x64 ![0, 1] bcast_S1x64_S100000x64_0_1 (broadcastInDim S1x64 ![1] bcast_S64_S1x64_1 b) (ix2 r j)
      = b (ix1 j) := by
  rw [broadcastInDim_oneRow_apply]
  exact broadcastInDim_apply ![1] bcast_S64_S1x64_1 b (ix2 (0 : Fin 1) j) (ix1 j) (fun a => by
    match a with
    | ⟨0, _⟩ => rfl)

/-- The affine map read at (r, j): the row of `x` against column `j` of `W`, plus the bias entry. -/
theorem dense_apply (x : FVec Ideal S100000x64 .f32) (W : FVec Ideal S64x64 .f32) (b : FVec Ideal S64 .f32)
    (r : Fin 100000) (j : Fin 64) :
    Term.dense (F := Ideal) x W b (ix2 r j) = ∑ k : Fin 64, x (ix2 r k) * W (ix2 k j) + b (ix1 j) := by
  unfold Term.dense
  rw [addf_apply, bias_apply, dot_eq_plain]
  show FloatOps.dotGeneral (DotDims.plain 100000 64 64) none .single x W (ix2 r j) + _ = _
  rw [Cert.LibDense.dotGeneral_plain_apply]

/-! ## The normalisation -/

/-- The shape fact of the row sum in the form that names the inserted coordinate. -/
theorem reduces_rows : S100000x64.Reduces [1] S100000 := by decide

/-- Every row's sum of squares, read at `r`. -/
theorem sumsq_apply (x : FVec Ideal S100000x64 .f32) (r : Fin 100000) :
    Host.reduceAdd (mulf x x) (constant (F := Ideal) S_ .f32 0x00000000#32) reducesTo_S100000x64_S100000_d1 h_S_ (ix1 r)
      = ∑ q : Fin 64, x (ix2 r q) * x (ix2 r q) := by
  show Ideal.hostReduceAdd reducesTo_S100000x64_S100000_d1 (mulf x x) (Ideal.ofBits .f32 0x00000000#32) (ix1 r) = _
  rw [Ideal.hostReduceAdd_single reducesTo_S100000x64_S100000_d1 reduces_rows, Ideal.ofBits_zero_f32, zero_add]
  show (∑ q : Fin 64, mulf x x (reduces_rows.lift (ix1 r) q)) = _
  refine Finset.sum_congr rfl fun q _ => ?_
  have e : reduces_rows.lift (ix1 r) q = (ix2 r q : S100000x64.Idx) :=
    funext fun a => Fin.ext (by
      match a with
      | ⟨0, _⟩ => rfl
      | ⟨1, _⟩ => rfl)
  rw [e, mulf_apply]

/-- The host's square root reads entry by entry. -/
theorem hostSqrt_apply {s : Shape} {φ : FTy} (a : FVec Ideal s φ) (i : s.Idx) : Host.sqrt a i = Ideal.sqrt (a i) := rfl

/-- Every row's Euclidean length, read at (r, 0). -/
theorem norm_apply (x : FVec Ideal S100000x64 .f32) (r : Fin 100000) :
    Term.norm (F := Ideal) x (ix2 r (0 : Fin 1)) = Ideal.sqrt (∑ q : Fin 64, x (ix2 r q) * x (ix2 r q)) := by
  unfold Term.norm
  rw [hostSqrt_apply, broadcastInDim_apply ![0] bcast_S100000_S100000x1_0 _ (ix2 r (0 : Fin 1)) (ix1 r) (fun a => by
    match a with
    | ⟨0, _⟩ => rfl), sumsq_apply]

/-- The lower bound of the length, laid over the column, reads as the constant. -/
theorem floor_apply (c : BitVec 32) (i : S100000x1.Idx) :
    broadcastInDim S100000x1 ![] bcast_S_S100000x1 (constant (F := Ideal) S_ .f32 c) i = Ideal.ofBits .f32 c :=
  broadcastInDim_apply ![] bcast_S_S100000x1 (constant (F := Ideal) S_ .f32 c) i (fun a => a.elim0) (fun a => a.elim0)

/-- A column laid along every row's entries reads, at (r, j), as the column's entry `r`. -/
theorem column_apply (m : FVec Ideal S100000x1 .f32) (r : Fin 100000) (j : Fin 64) :
    broadcastInDim S100000x64 ![0, 1] bcast_S100000x1_S100000x64_0_1 m (ix2 r j) = m (ix2 r (0 : Fin 1)) :=
  broadcastInDim_apply ![0, 1] bcast_S100000x1_S100000x64_0_1 m (ix2 r j) (ix2 r (0 : Fin 1)) (fun a => by
    match a with
    | ⟨0, _⟩ => rfl
    | ⟨1, _⟩ => rfl)

/-- The reference's layer before normalisation is the row function `Spec.rowE` on every row. -/
theorem layerE_eq (ego side : FVec Ideal S100000x64 .f32) (Ws : FVec Ideal S64x64 .f32) (bs : FVec Ideal S64 .f32)
    (Wb : FVec Ideal S64x64 .f32) (bb : FVec Ideal S64 .f32) :
    Term.layerE (F := Ideal) ego side Ws bs Wb bb
      = Cert.Spec.layerE (R := 100000) ego side Ws (fun j => bs (ix1 j)) Wb (fun j => bb (ix1 j)) := by
  funext i
  obtain ⟨r, j, rfl⟩ : ∃ (r : Fin 100000) (j : Fin 64), i = ix2 r j := ⟨i 0, i 1, eq_ix2 i⟩
  rw [Cert.Spec.layerE_apply]
  unfold Term.layerE Cert.Spec.rowE
  rw [addf_apply, leaky_apply, leaky_apply, dense_apply, dense_apply]
  simp only [addf_apply, mulf_apply]

/-- The reference's normalisation is the row function `Spec.rowN` on every row. -/
theorem layerN_eq (x : FVec Ideal S100000x64 .f32) :
    Term.layerN (F := Ideal) x = Cert.Spec.layerN (R := 100000) x := by
  funext i
  obtain ⟨r, j, rfl⟩ : ∃ (r : Fin 100000) (j : Fin 64), i = ix2 r j := ⟨i 0, i 1, eq_ix2 i⟩
  rw [Cert.Spec.layerN_apply]
  unfold Term.layerN Cert.Spec.rowN
  rw [hostDivf_apply, column_apply, maximumf_apply, norm_apply, floor_apply]

end Cert.ReferenceIdeal.RefValue

end
-- ==== Proof.lean ====
/-
  The proof of `Cert.Claim`: the three frames, the (empty) list of sanctioned rewrites, and the equality of the two
  idealized programs' results over the extended reals.

  Both programs compute, twice over, a layer on the node rows and their aggregated neighbour rows (the aggregation is
  spelt by the same host operations in both), then normalise each layer's rows and lay the node rows and the two
  normalised layers side by side. The kernel computes a layer 5000 rows at a time on a grid of 20 points; the reference
  computes it on all 100000 rows at once. A row of a layer depends only on the same row of its operands and on the
  weights, so both are the row functions `Spec.rowE` and `Spec.rowN` applied to every row: the kernel's by its blocks
  covering the rows, the reference's by reading its operations at an index. No law of the extended reals beyond
  the order of a finite sum is used, so the precondition is not opened.
-/
import proofs.«108768_j30846455120404_1_alg».proof.Defs
import proofs.«108768_j30846455120404_1_alg».proof.Proof.KBits.Run
import proofs.«108768_j30846455120404_1_alg».proof.Proof.KIdeal.Final
import proofs.«108768_j30846455120404_1_alg».proof.Proof.RefRun
import proofs.«108768_j30846455120404_1_alg».proof.Proof.RefValue
import proofs.«108768_j30846455120404_1_alg».proof.Proof.Gen.Pre_finite_inputs
import Idealize.ShloMosaic.Adequacy
import Idealize.ShloMosaic.Init

noncomputable section

namespace Cert.Proof

open Idealize.ShloMosaic Idealize.SL.Sem

/-- The aggregation of neighbour rows is spelt by the same operations in both programs. -/
theorem spmm_eq (x : FVec Ideal Cert.KernelIdeal.S100000x64 .f32) (w : FVec Ideal Cert.KernelIdeal.S1600000 .f32)
    (src dst : IVec Cert.KernelIdeal.S1600000 32) :
    Cert.KernelIdeal.Host.spmm (F := Ideal) x w src dst = Cert.ReferenceIdeal.Term.spmm (F := Ideal) x w src dst := rfl

/-- The reference's result of any arguments: the node rows beside the two normalised layers, each layer the row
    function on every row, the second fed the first layer's un-normalised result and its aggregated rows. -/
theorem ref_out_eq (a0 : FVec Ideal Cert.ReferenceIdeal.S100000x64 .f32) (a1 : FVec Ideal Cert.ReferenceIdeal.S1600000 .f32)
    (a2 : FVec Ideal Cert.ReferenceIdeal.S64x64 .f32) (a3 : FVec Ideal Cert.ReferenceIdeal.S64 .f32) (a4 : FVec Ideal Cert.ReferenceIdeal.S64x64 .f32)
    (a5 : FVec Ideal Cert.ReferenceIdeal.S64 .f32) (a6 : FVec Ideal Cert.ReferenceIdeal.S64x64 .f32) (a7 : FVec Ideal Cert.ReferenceIdeal.S64 .f32)
    (a8 : FVec Ideal Cert.ReferenceIdeal.S64x64 .f32) (a9 : FVec Ideal Cert.ReferenceIdeal.S64 .f32) (a10 a11 : IVec Cert.ReferenceIdeal.S1600000 32) :
    Cert.ReferenceIdeal.Term.out (F := Ideal) a0 a1 a2 a3 a4 a5 a6 a7 a8 a9 a10 a11
      = concatenate Cert.ReferenceIdeal.S100000x192 1
          [⟨Cert.ReferenceIdeal.S100000x64, a0⟩,
            ⟨Cert.ReferenceIdeal.S100000x64, Cert.Spec.layerN (R := 100000)
              (Cert.Spec.layerE (R := 100000) a0 (Cert.ReferenceIdeal.Term.spmm (F := Ideal) a0 a1 a10 a11) a2 (fun j => a3 (ValueIdx.ix1 j)) a4 (fun j => a5 (ValueIdx.ix1 j)))⟩,
            ⟨Cert.ReferenceIdeal.S100000x64, Cert.Spec.layerN (R := 100000)
              (Cert.Spec.layerE (R := 100000)
                (Cert.Spec.layerE (R := 100000) a0 (Cert.ReferenceIdeal.Term.spmm (F := Ideal) a0 a1 a10 a11) a2 (fun j => a3 (ValueIdx.ix1 j)) a4 (fun j => a5 (ValueIdx.ix1 j)))
                (Cert.ReferenceIdeal.Term.spmm (F := Ideal)
                  (Cert.Spec.layerE (R := 100000) a0 (Cert.ReferenceIdeal.Term.spmm (F := Ideal) a0 a1 a10 a11) a2 (fun j => a3 (ValueIdx.ix1 j)) a4 (fun j => a5 (ValueIdx.ix1 j)))
                  a1 a10 a11)
                a6 (fun j => a7 (ValueIdx.ix1 j)) a8 (fun j => a9 (ValueIdx.ix1 j)))⟩]
          Cert.ReferenceIdeal.Gen.concatenates_S100000x64_S100000x64_S100000x64_S100000x192_d1 := by
  unfold Cert.ReferenceIdeal.Term.out Cert.ReferenceIdeal.Term.e2 Cert.ReferenceIdeal.Term.e1
  rw [Cert.ReferenceIdeal.RefValue.layerE_eq a0 (Cert.ReferenceIdeal.Term.spmm (F := Ideal) a0 a1 a10 a11) a2 a3 a4 a5]
  rw [Cert.ReferenceIdeal.RefValue.layerE_eq (Cert.Spec.layerE (R := 100000) a0 (Cert.ReferenceIdeal.Term.spmm (F := Ideal) a0 a1 a10 a11) a2 (fun j => a3 (ValueIdx.ix1 j)) a4 (fun j => a5 (ValueIdx.ix1 j))) (Cert.ReferenceIdeal.Term.spmm (F := Ideal) (Cert.Spec.layerE (R := 100000) a0 (Cert.ReferenceIdeal.Term.spmm (F := Ideal) a0 a1 a10 a11) a2 (fun j => a3 (ValueIdx.ix1 j)) a4 (fun j => a5 (ValueIdx.ix1 j))) a1 a10 a11) a6 a7 a8 a9]
  rw [Cert.ReferenceIdeal.RefValue.layerN_eq (Cert.Spec.layerE (R := 100000) a0 (Cert.ReferenceIdeal.Term.spmm (F := Ideal) a0 a1 a10 a11) a2 (fun j => a3 (ValueIdx.ix1 j)) a4 (fun j => a5 (ValueIdx.ix1 j))), Cert.ReferenceIdeal.RefValue.layerN_eq (Cert.Spec.layerE (R := 100000) (Cert.Spec.layerE (R := 100000) a0 (Cert.ReferenceIdeal.Term.spmm (F := Ideal) a0 a1 a10 a11) a2 (fun j => a3 (ValueIdx.ix1 j)) a4 (fun j => a5 (ValueIdx.ix1 j))) (Cert.ReferenceIdeal.Term.spmm (F := Ideal) (Cert.Spec.layerE (R := 100000) a0 (Cert.ReferenceIdeal.Term.spmm (F := Ideal) a0 a1 a10 a11) a2 (fun j => a3 (ValueIdx.ix1 j)) a4 (fun j => a5 (ValueIdx.ix1 j))) a1 a10 a11) a6 (fun j => a7 (ValueIdx.ix1 j)) a8 (fun j => a9 (ValueIdx.ix1 j)))]

theorem frame_k : Cert.frame_Kernel := fun m ρ _ => Cert.Kernel.Run.frame m ρ

theorem frame_ki : Cert.frame_KernelIdeal := fun m ρ _ => Cert.KernelIdeal.Run.frame m ρ

theorem frame_ri : Cert.frame_ReferenceIdeal := fun m ρ _ =>
  (θ_run Cert.ReferenceIdeal.defs _ _).mono (fun _ h c => (h c).2) (Cert.ReferenceIdeal.Hand.run (F := Ideal) m ρ)

/-- The kernel's result array ends at the node rows beside the two normalised layers (its run, read through its
    blocks), and so does the reference's (its run, read at an index), of arguments that agree. -/
theorem algebraic : Cert.algebraic_KernelIdeal_ReferenceIdeal := by
  intro m ρ m' ρ' _ hagree
  refine ⟨fun c => Cert.KernelIdeal.Run.B5 m c (Proc.devRef .tc Cert.KernelIdeal.main_v32), Cert.KernelIdeal.Run.run_result m ρ, ?_⟩
  refine (θ_run Cert.ReferenceIdeal.defs _ _).mono (fun _ h c => ⟨(h c).1.trans ?_, (h c).2⟩)
    (Cert.ReferenceIdeal.Hand.run (F := Ideal) m' ρ')
  obtain ⟨h0, h1, h2, h3, h4, h5, h6, h7, h8, h9, h10, h11⟩ := hagree c
  rw [h0, h1, h2, h3, h4, h5, h6, h7, h8, h9, h10, h11]
  refine Eq.trans ?_ (Cert.KernelIdeal.Final.result m c).symm
  refine (ref_out_eq _ _ _ _ _ _ _ _ _ _ _ _).trans ?_
  unfold Cert.KernelIdeal.Final.e2 Cert.KernelIdeal.Final.e1
  simp only [spmm_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
